-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v21_1)) (v1 : (c : Dev Cert.KernelIdeal.nD) → Buf (Elt Ideal) ((c.tc : Thread Cert.KernelIdeal.nD Cert.KernelIdeal.τ).loc Cert.KernelIdeal.main_v21_0)) (v2 : (c : Dev Cert.KernelIdeal.nD) → Buf (Elt Ideal) ((c.tc : Thread Cert.KernelIdeal.nD Cert.KernelIdeal.τ).loc Cert.KernelIdeal.main_v46)) (v3 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_1) = v0 c
          ∧ r.2.mem ((c.tc : Thread Cert.KernelIdeal.nD Cert.KernelIdeal.τ).loc Cert.KernelIdeal.main_v21_0) = v1 c
          ∧ r.2.mem ((c.tc : Thread Cert.KernelIdeal.nD Cert.KernelIdeal.τ).loc Cert.KernelIdeal.main_v46) = v2 c
          ∧ r.2.mem ((c.tc : Thread Cert.KernelIdeal.nD Cert.KernelIdeal.τ).loc Cert.KernelIdeal.main_v71) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128 : Shape := ⟨2, ![256, 128]⟩
abbrev S256 : Shape := ⟨1, ![256]⟩
abbrev S256x512 : Shape := ⟨2, ![256, 512]⟩
abbrev S1000000x128 : Shape := ⟨2, ![1000000, 128]⟩
abbrev S128x128 : Shape := ⟨2, ![128, 128]⟩
abbrev S128 : Shape := ⟨1, ![128]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg13 : FVec F S128 .f32) (main_arg14 : FVec F S128x128 .f32) (main_arg15 : FVec F S128 .f32) (main_arg16 : FVec F S128x128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_v13 : IVec S_ 1) (main_v16 : IVec S1000000x128 1) : IVec S_ 1 :=
  let main_c_5 : IVec S_ 1 := constantI S_ 1 1#1
  let main_v17 : IVec S_ 1 := (fun x v => Host.reduce IntOp.andi x v reducesTo_S1000000x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S256x128 .f32) (main_arg1 : FVec F S256x128 .f32) (main_arg2 : IVec S256 32) (main_arg3 : IVec S256x512 32) (main_arg4 : FVec F S1000000x128 .f32) (main_arg5 : FVec F S1000000x128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) : IVec S_ 1 :=
  let main_v0 : FVec F S256x128 .f32 := Host.absf main_arg0
  let main_cst : FVec F S_ .f32 := constant S_ .f32 0x7F800000#32
  let main_v1 : FVec F S256x128 .f32 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S1000000x128 .f32 := Host.absf main_arg4
  let main_cst_2 : FVec F S_ .f32 := constant S_ .f32 0x7F800000#32
  let main_v10 : FVec F S1000000x128 .f32 := broadcastInDim S1000000x128 ![] bcast_S_S1000000x128 main_cst_2
  let main_v11 : IVec S1000000x128 1 := cmpf .olt main_v9 main_v10
  let main_c_3 : IVec S_ 1 := constantI S_ 1 1#1
  let main_v12 : IVec S_ 1 := (fun x v => Host.reduce IntOp.andi x v reducesTo_S1000000x128_S_d0_1 h_S_) main_v11 main_c_3
  let main_v13 : IVec S_ 1 := andi main_v8 main_v12
  let main_v14 : FVec F S1000000x128 .f32 := Host.absf main_arg5
  let main_cst_4 : FVec F S_ .f32 := constant S_ .f32 0x7F800000#32
  let main_v15 : FVec F S1000000x128 .f32 := broadcastInDim S1000000x128 ![] bcast_S_S1000000x128 main_cst_4
  let main_v16 : IVec S1000000x128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S256x128 : Shape := ⟨2, ![256, 128]⟩
abbrev S256 : Shape := ⟨1, ![256]⟩
abbrev S256x512 : Shape := ⟨2, ![256, 512]⟩
abbrev S1000000x128 : Shape := ⟨2, ![1000000, 128]⟩
abbrev S128x128 : Shape := ⟨2, ![128, 128]⟩
abbrev S128 : Shape := ⟨1, ![128]⟩
abbrev S_ : Shape := ⟨0, ![]⟩
abbrev S256x512x1 : Shape := ⟨3, ![256, 512, 1]⟩
abbrev S256x512x128 : Shape := ⟨3, ![256, 512, 128]⟩
abbrev S512x256x128 : Shape := ⟨3, ![512, 256, 128]⟩
abbrev S32x256x128 : Shape := ⟨3, ![32, 256, 128]⟩
abbrev S8192x128 : Shape := ⟨2, ![8192, 128]⟩
abbrev S1x128 : Shape := ⟨2, ![1, 128]⟩
abbrev S1x256x128 : Shape := ⟨3, ![1, 256, 128]⟩
abbrev S256x1 : Shape := ⟨2, ![256, 1]⟩

abbrev nBuf : Space → Nat
  | .hbm => 107
  | .vmem => 20
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256, .i32⟩
  | .hbm, ⟨3, _⟩ => ⟨S256x512, .i32⟩
  | .hbm, ⟨4, _⟩ => ⟨S1000000x128, .f32⟩
  | .hbm, ⟨5, _⟩ => ⟨S1000000x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S_, .i32⟩
  | .hbm, ⟨19, _⟩ => ⟨S256x512, .i32⟩
  | .hbm, ⟨20, _⟩ => ⟨S256x512, .i1⟩
  | .hbm, ⟨21, _⟩ => ⟨S_, .i32⟩
  | .hbm, ⟨22, _⟩ => ⟨S256x512, .i32⟩
  | .hbm, ⟨23, _⟩ => ⟨S256x512, .i32⟩
  | .hbm, ⟨24, _⟩ => ⟨S256x512, .i32⟩
  | .hbm, ⟨25, _⟩ => ⟨S256x512x1, .i32⟩
  | .hbm, ⟨26, _⟩ => ⟨S256x512x128, .f32⟩
  | .hbm, ⟨27, _⟩ => ⟨S512x256x128, .f32⟩
  | .hbm, ⟨28, _⟩ => ⟨S512x256x128, .bf16⟩
  | .hbm, ⟨29, _⟩ => ⟨S128x128, .f32⟩
  | .hbm, ⟨30, _⟩ => ⟨S128x128, .bf16⟩
  | .hbm, ⟨31, _⟩ => ⟨S128x128, .f32⟩
  | .hbm, ⟨32, _⟩ => ⟨S128x128, .bf16⟩
  | .hbm, ⟨33, _⟩ => ⟨S128x128, .f32⟩
  | .hbm, ⟨34, _⟩ => ⟨S128x128, .bf16⟩
  | .hbm, ⟨35, _⟩ => ⟨S128x128, .f32⟩
  | .hbm, ⟨36, _⟩ => ⟨S128x128, .bf16⟩
  | .hbm, ⟨37, _⟩ => ⟨S128x128, .f32⟩
  | .hbm, ⟨38, _⟩ => ⟨S128x128, .bf16⟩
  | .hbm, ⟨39, _⟩ => ⟨S128x128, .f32⟩
  | .hbm, ⟨40, _⟩ => ⟨S128x128, .bf16⟩
  | .hbm, ⟨41, _⟩ => ⟨S512x256x128, .f32⟩
  | .hbm, ⟨42, _⟩ => ⟨S512x256x128, .f32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S_, .i32⟩
  | .hbm, ⟨47, _⟩ => ⟨S256, .i32⟩
  | .hbm, ⟨48, _⟩ => ⟨S256, .i32⟩
  | .hbm, ⟨49, _⟩ => ⟨S256, .i32⟩
  | .hbm, ⟨50, _⟩ => ⟨S256x1, .i32⟩
  | .hbm, ⟨51, _⟩ => ⟨S256x128, .f32⟩
  | .hbm, ⟨52, _⟩ => ⟨S_, .f32⟩
  | .hbm, ⟨53, _⟩ => ⟨S256x128, .f32⟩
  | .hbm, ⟨54, _⟩ => ⟨S256x128, .f32⟩
  | .hbm, ⟨55, _⟩ => ⟨S_, .f32⟩
  | .hbm, ⟨56, _⟩ => ⟨S256x128, .f32⟩
  | .hbm, ⟨57, _⟩ => ⟨S256x128, .f32⟩
  | .hbm, ⟨58, _⟩ => ⟨S256x128, .f32⟩
  | .hbm, ⟨59, _⟩ => ⟨S256x128, .f32⟩
  | .hbm, ⟨60, _⟩ => ⟨S_, .f32⟩
  | .hbm, ⟨61, _⟩ => ⟨S256, .f32⟩
  | .hbm, ⟨62, _⟩ => ⟨S256x1, .f32⟩
  | .hbm, ⟨63, _⟩ => ⟨S256x1, .f32⟩
  | .hbm, ⟨64, _⟩ => ⟨S256x128, .f32⟩
  | .hbm, ⟨65, _⟩ => ⟨S256x128, .f32⟩
  | .hbm, ⟨66, _⟩ => ⟨S_, .i32⟩
  | .hbm, ⟨67, _⟩ => ⟨S256, .i32⟩
  | .hbm, ⟨68, _⟩ => ⟨S256, .i1⟩
  | .hbm, ⟨69, _⟩ => ⟨S_, .i32⟩
  | .hbm, ⟨70, _⟩ => ⟨S256, .i32⟩
  | .hbm, ⟨71, _⟩ => ⟨S256, .i32⟩
  | .hbm, ⟨72, _⟩ => ⟨S256, .i32⟩
  | .hbm, ⟨73, _⟩ => ⟨S256x1, .i32⟩
  | .hbm, ⟨74, _⟩ => ⟨S1000000x128, .f32⟩
  | .hbm, ⟨75, _⟩ => ⟨S_, .i32⟩
  | .hbm, ⟨76, _⟩ => ⟨S256, .i32⟩
  | .hbm, ⟨77, _⟩ => ⟨S256, .i1⟩
  | .hbm, ⟨78, _⟩ => ⟨S_, .i32⟩
  | .hbm, ⟨79, _⟩ => ⟨S256, .i32⟩
  | .hbm, ⟨80, _⟩ => ⟨S256, .i32⟩
  | .hbm, ⟨81, _⟩ => ⟨S256, .i32⟩
  | .hbm, ⟨82, _⟩ => ⟨S256x1, .i32⟩
  | .hbm, ⟨83, _⟩ => ⟨S256x128, .f32⟩
  | .hbm, ⟨84, _⟩ => ⟨S_, .f32⟩
  | .hbm, ⟨85, _⟩ => ⟨S256x128, .f32⟩
  | .hbm, ⟨86, _⟩ => ⟨S256x128, .f32⟩
  | .hbm, ⟨87, _⟩ => ⟨S_, .f32⟩
  | .hbm, ⟨88, _⟩ => ⟨S256x128, .f32⟩
  | .hbm, ⟨89, _⟩ => ⟨S256x128, .f32⟩
  | .hbm, ⟨90, _⟩ => ⟨S256x128, .f32⟩
  | .hbm, ⟨91, _⟩ => ⟨S256x128, .f32⟩
  | .hbm, ⟨92, _⟩ => ⟨S_, .f32⟩
  | .hbm, ⟨93, _⟩ => ⟨S256, .f32⟩
  | .hbm, ⟨94, _⟩ => ⟨S256x1, .f32⟩
  | .hbm, ⟨95, _⟩ => ⟨S256x1, .f32⟩
  | .hbm, ⟨96, _⟩ => ⟨S256x128, .f32⟩
  | .hbm, ⟨97, _⟩ => ⟨S256x128, .f32⟩
  | .hbm, ⟨98, _⟩ => ⟨S_, .i32⟩
  | .hbm, ⟨99, _⟩ => ⟨S256, .i32⟩
  | .hbm, ⟨100, _⟩ => ⟨S256, .i1⟩
  | .hbm, ⟨101, _⟩ => ⟨S_, .i32⟩
  | .hbm, ⟨102, _⟩ => ⟨S256, .i32⟩
  | .hbm, ⟨103, _⟩ => ⟨S256, .i32⟩
  | .hbm, ⟨104, _⟩ => ⟨S256, .i32⟩
  | .hbm, ⟨105, _⟩ => ⟨S256x1, .i32⟩
  | .hbm, ⟨106, _⟩ => ⟨S1000000x128, .f32⟩
  | .local _ .vmem, ⟨0, _⟩ => ⟨S256x128, .f32⟩
  | .local _ .vmem, ⟨1, _⟩ => ⟨S256x128, .f32⟩
  | .local _ .vmem, ⟨2, _⟩ => ⟨S32x256x128, .bf16⟩
  | .local _ .vmem, ⟨3, _⟩ => ⟨S32x256x128, .bf16⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S128x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128x128, .bf16⟩
  | .local _ .vmem, ⟨13, _⟩ => ⟨S128, .f32⟩
  | .local _ .vmem, ⟨14, _⟩ => ⟨S128x128, .bf16⟩
  | .local _ .vmem, ⟨15, _⟩ => ⟨S128, .f32⟩
  | .local _ .vmem, ⟨16, _⟩ => ⟨S32x256x128, .f32⟩
  | .local _ .vmem, ⟨17, _⟩ => ⟨S32x256x128, .f32⟩
  | .local _ .vmem, ⟨18, _⟩ => ⟨S32x256x128, .f32⟩
  | .local _ .vmem, ⟨19, _⟩ => ⟨S32x256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_c_1 : Ref sig .tc := ⟨.hbm, 43, rfl⟩
abbrev main_v22 : Ref sig .tc := ⟨.hbm, 44, rfl⟩
abbrev main_v23 : Ref sig .tc := ⟨.hbm, 45, rfl⟩
abbrev main_c_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_5 : Ref sig .tc := ⟨.hbm, 66, rfl⟩
abbrev main_v40 : Ref sig .tc := ⟨.hbm, 67, rfl⟩
abbrev main_v41 : Ref sig .tc := ⟨.hbm, 68, rfl⟩
abbrev main_c_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_7 : Ref sig .tc := ⟨.hbm, 75, rfl⟩
abbrev main_v47 : Ref sig .tc := ⟨.hbm, 76, rfl⟩
abbrev main_v48 : Ref sig .tc := ⟨.hbm, 77, rfl⟩
abbrev main_c_8 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_12 : Ref sig .tc := ⟨.hbm, 98, rfl⟩
abbrev main_v65 : Ref sig .tc := ⟨.hbm, 99, rfl⟩
abbrev main_v66 : Ref sig .tc := ⟨.hbm, 100, rfl⟩
abbrev main_c_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S32x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  transposes_S256x512x128_S512x256x128_1_0_2 : S256x512x128.Transposes [1, 0, 2] S512x256x128
  bitsLt_bf16_f32 : FTy.bits .bf16 < FTy.bits .f32
  transposes_S128x128_S128x128_1_0 : S128x128.Transposes [1, 0] S128x128
  inb_S256x128_S256x128_0_0 : ∀ a, (![0, 0] : Fin 2 → Nat) a + S256x128.size a ≤ S256x128.size a
  h_S256x128 : 0 < S256x128.numel
  inb_S32x256x128_S32x256x128_0_0_0 : ∀ a, (![0, 0, 0] : Fin 3 → Nat) a + S32x256x128.size a ≤ S32x256x128.size a
  h_S32x256x128 : 0 < S32x256x128.numel
  shapeCasts_S32x256x128_S32x256x128 : S32x256x128.ShapeCasts S32x256x128
  shapeCasts_S32x256x128_S8192x128 : S32x256x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  broadcasts_S1x128_S8192x128 : S1x128.Broadcasts S8192x128
  shapeCasts_S8192x128_S32x256x128 : S8192x128.ShapeCasts S32x256x128
  shapeCasts_S256x128_S1x256x128 : S256x128.ShapeCasts S1x256x128
  shapeCasts_S1x256x128_S1x256x128 : S1x256x128.ShapeCasts S1x256x128
  broadcasts_S1x256x128_S32x256x128 : S1x256x128.Broadcasts S32x256x128
  bcast_S_S256 : S_.BroadcastsInDim S256 (![] : Fin 0 → Fin S256.rank)
  bcast_S256_S256x1_0 : S256.BroadcastsInDim S256x1 (![0] : Fin 1 → Fin S256x1.rank)
  bcast_S_S256x128 : S_.BroadcastsInDim S256x128 (![] : Fin 0 → Fin S256x128.rank)
  reducesTo_S256x128_S256_d1 : S256x128.ReducesTo [1] S256
  h_S_ : 0 < S_.numel
  bcast_S256x1_S256x128_0_1 : S256x1.BroadcastsInDim S256x128 (![0, 1] : Fin 2 → Fin S256x128.rank)
  gather_S1000000x128_S256x512x1_S256x512x128_2_0_n_n_0_2_1128_wf : GatherDims.WF S1000000x128 S256x512x1 S256x512x128 [2] [0] [] [0] [] 2 ![1, 128]
  dot_S256x128_S128x128_S256x128_1_0_0_1_n_n_wf : DotDims.WF S256x128 S128x128 S256x128 [1] [0] [0] [1] [] []
  dot_S8192x128_S128x128_S8192x128_1_0_0_1_n_n_wf : DotDims.WF S8192x128 S128x128 S8192x128 [1] [0] [0] [1] [] []
  gather_S1000000x128_S256x1_S256x128_1_0_n_n_0_1_1128_wf : GatherDims.WF S1000000x128 S256x1 S256x128 [1] [0] [] [0] [] 1 ![1, 128]
  scatter_S1000000x128_S256x1_S256x128_1_0_0_1_wf : ScatterDims.WF S1000000x128 S256x1 S256x128 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S256x128.size a
  hwx0_0 : ∀ i : grid0.Coords, EltTy.bits .f32 = 32 ∨ (Rect.block (s := S256x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x128.size a ≤ S512x256x128.size a
  hwx0_2 : ∀ i : grid0.Coords, EltTy.bits .bf16 = 32 ∨ (Rect.block (s := S512x256x128) S32x256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .bf16 = 32 ∨ (Rect.block (s := S128x128) S128x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S32x256x128.size a ≤ S512x256x128.size a
  hwx0_15 : ∀ i : grid0.Coords, EltTy.bits .f32 = 32 ∨ (Rect.block (s := S512x256x128) S32x256x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S32x256x128.size a ≤ S512x256x128.size a
  hwx0_16 : ∀ i : grid0.Coords, EltTy.bits .f32 = 32 ∨ (Rect.block (s := S512x256x128) S32x256x128.size (cc0_transform_16 i) (hinb0_16 i)).WholeWords (EltTy.packing .f32)

variable [Facts₀]

def gather_S1000000x128_S256x512x1_S256x512x128_2_0_n_n_0_2_1128 : GatherDims S1000000x128 S256x512x1 S256x512x128 where
  offsetDims := [2]
  collapsedSliceDims := [0]
  operandBatchingDims := []
  startIndicesBatchingDims := []
  startIndexMap := [0]
  indexVectorDim := 2
  sliceSizes := ![1, 128]
  wf := gather_S1000000x128_S256x512x1_S256x512x128_2_0_n_n_0_2_1128_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S1000000x128_S256x1_S256x128_1_0_n_n_0_1_1128 : GatherDims S1000000x128 S256x1 S256x128 where
  offsetDims := [1]
  collapsedSliceDims := [0]
  operandBatchingDims := []
  startIndicesBatchingDims := []
  startIndexMap := [0]
  indexVectorDim := 1
  sliceSizes := ![1, 128]
  wf := gather_S1000000x128_S256x1_S256x128_1_0_n_n_0_1_1128_wf
def scatter_S1000000x128_S256x1_S256x128_1_0_0_1 : ScatterDims S1000000x128 S256x1 S256x128 where
  updateWindowDims := [1]
  insertedWindowDims := [0]
  scatterDimsToOperandDims := [0]
  indexVectorDim := 1
  wf := scatter_S1000000x128_S256x1_S256x128_1_0_0_1_wf

abbrev win0_0 : Pipeline.Window sig grid0 :=
  Pipeline.Window.ofSpec (Memref.whole main_arg0) S256x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S32x256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg15) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg17) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v21_0) S32x256x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v21_1) S32x256x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S256x128 : Shape := ⟨2, ![256, 128]⟩
abbrev S256 : Shape := ⟨1, ![256]⟩
abbrev S256x512 : Shape := ⟨2, ![256, 512]⟩
abbrev S1000000x128 : Shape := ⟨2, ![1000000, 128]⟩
abbrev S128x128 : Shape := ⟨2, ![128, 128]⟩
abbrev S128 : Shape := ⟨1, ![128]⟩
abbrev S_ : Shape := ⟨0, ![]⟩
abbrev S256x512x1 : Shape := ⟨3, ![256, 512, 1]⟩
abbrev S256x512x128 : Shape := ⟨3, ![256, 512, 128]⟩
abbrev S512x256x128 : Shape := ⟨3, ![512, 256, 128]⟩
abbrev S1x128 : Shape := ⟨2, ![1, 128]⟩
abbrev S1x1x128 : Shape := ⟨3, ![1, 1, 128]⟩
abbrev S1x256x128 : Shape := ⟨3, ![1, 256, 128]⟩
abbrev S256x1 : Shape := ⟨2, ![256, 1]⟩

abbrev nBuf : Space → Nat
  | .hbm => 130
  | .vmem => 0
  | .smem => 0
  | _ => 0

abbrev hbmTy0_0 (i : Nat) : BufTy := match i % 128 with
  | 0 => ⟨S256x128, .f32⟩
  | 1 => ⟨S256x128, .f32⟩
  | 2 => ⟨S256, .i32⟩
  | 3 => ⟨S256x512, .i32⟩
  | 4 => ⟨S1000000x128, .f32⟩
  | 5 => ⟨S1000000x128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S_, .i32⟩
  | 19 => ⟨S256x512, .i32⟩
  | 20 => ⟨S256x512, .i1⟩
  | 21 => ⟨S_, .i32⟩
  | 22 => ⟨S256x512, .i32⟩
  | 23 => ⟨S256x512, .i32⟩
  | 24 => ⟨S256x512, .i32⟩
  | 25 => ⟨S256x512x1, .i32⟩
  | 26 => ⟨S256x512x128, .f32⟩
  | 27 => ⟨S512x256x128, .f32⟩
  | 28 => ⟨S128x128, .f32⟩
  | 29 => ⟨S256x128, .f32⟩
  | 30 => ⟨S1x128, .f32⟩
  | 31 => ⟨S256x128, .f32⟩
  | 32 => ⟨S256x128, .f32⟩
  | 33 => ⟨S512x256x128, .f32⟩
  | 34 => ⟨S1x1x128, .f32⟩
  | 35 => ⟨S512x256x128, .f32⟩
  | 36 => ⟨S512x256x128, .f32⟩
  | 37 => ⟨S1x256x128, .f32⟩
  | 38 => ⟨S512x256x128, .f32⟩
  | 39 => ⟨S512x256x128, .f32⟩
  | 40 => ⟨S_, .f32⟩
  | 41 => ⟨S512x256x128, .f32⟩
  | 42 => ⟨S512x256x128, .f32⟩
  | 43 => ⟨S512x256x128, .f32⟩
  | 44 => ⟨S1x1x128, .f32⟩
  | 45 => ⟨S512x256x128, .f32⟩
  | 46 => ⟨S512x256x128, .f32⟩
  | 47 => ⟨S128x128, .f32⟩
  | 48 => ⟨S256x128, .f32⟩
  | 49 => ⟨S1x128, .f32⟩
  | 50 => ⟨S256x128, .f32⟩
  | 51 => ⟨S256x128, .f32⟩
  | 52 => ⟨S512x256x128, .f32⟩
  | 53 => ⟨S1x1x128, .f32⟩
  | 54 => ⟨S512x256x128, .f32⟩
  | 55 => ⟨S512x256x128, .f32⟩
  | 56 => ⟨S1x256x128, .f32⟩
  | 57 => ⟨S512x256x128, .f32⟩
  | 58 => ⟨S512x256x128, .f32⟩
  | 59 => ⟨S_, .f32⟩
  | 60 => ⟨S512x256x128, .f32⟩
  | 61 => ⟨S512x256x128, .f32⟩
  | 62 => ⟨S512x256x128, .f32⟩
  | 63 => ⟨S1x1x128, .f32⟩
  | 64 => ⟨S512x256x128, .f32⟩
  | 65 => ⟨S512x256x128, .f32⟩
  | 66 => ⟨S_, .i32⟩
  | 67 => ⟨S256, .i32⟩
  | 68 => ⟨S256, .i1⟩
  | 69 => ⟨S_, .i32⟩
  | 70 => ⟨S256, .i32⟩
  | 71 => ⟨S256, .i32⟩
  | 72 => ⟨S256, .i32⟩
  | 73 => ⟨S256x1, .i32⟩
  | 74 => ⟨S256x128, .f32⟩
  | 75 => ⟨S_, .f32⟩
  | 76 => ⟨S256x128, .f32⟩
  | 77 => ⟨S256x128, .f32⟩
  | 78 => ⟨S_, .f32⟩
  | 79 => ⟨S256x128, .f32⟩
  | 80 => ⟨S256x128, .f32⟩
  | 81 => ⟨S256x128, .f32⟩
  | 82 => ⟨S256x128, .f32⟩
  | 83 => ⟨S_, .f32⟩
  | 84 => ⟨S256, .f32⟩
  | 85 => ⟨S256x1, .f32⟩
  | 86 => ⟨S256x1, .f32⟩
  | 87 => ⟨S256x128, .f32⟩
  | 88 => ⟨S256x128, .f32⟩
  | 89 => ⟨S_, .i32⟩
  | 90 => ⟨S256, .i32⟩
  | 91 => ⟨S256, .i1⟩
  | 92 => ⟨S_, .i32⟩
  | 93 => ⟨S256, .i32⟩
  | 94 => ⟨S256, .i32⟩
  | 95 => ⟨S256, .i32⟩
  | 96 => ⟨S256x1, .i32⟩
  | 97 => ⟨S1000000x128, .f32⟩
  | 98 => ⟨S_, .i32⟩
  | 99 => ⟨S256, .i32⟩
  | 100 => ⟨S256, .i1⟩
  | 101 => ⟨S_, .i32⟩
  | 102 => ⟨S256, .i32⟩
  | 103 => ⟨S256, .i32⟩
  | 104 => ⟨S256, .i32⟩
  | 105 => ⟨S256x1, .i32⟩
  | 106 => ⟨S256x128, .f32⟩
  | 107 => ⟨S_, .f32⟩
  | 108 => ⟨S256x128, .f32⟩
  | 109 => ⟨S256x128, .f32⟩
  | 110 => ⟨S_, .f32⟩
  | 111 => ⟨S256x128, .f32⟩
  | 112 => ⟨S256x128, .f32⟩
  | 113 => ⟨S256x128, .f32⟩
  | 114 => ⟨S256x128, .f32⟩
  | 115 => ⟨S_, .f32⟩
  | 116 => ⟨S256, .f32⟩
  | 117 => ⟨S256x1, .f32⟩
  | 118 => ⟨S256x1, .f32⟩
  | 119 => ⟨S256x128, .f32⟩
  | 120 => ⟨S256x128, .f32⟩
  | 121 => ⟨S_, .i32⟩
  | 122 => ⟨S256, .i32⟩
  | 123 => ⟨S256, .i1⟩
  | 124 => ⟨S_, .i32⟩
  | 125 => ⟨S256, .i32⟩
  | 126 => ⟨S256, .i32⟩
  | 127 => ⟨S256, .i32⟩
  | _ => ⟨S256x128, .f32⟩

abbrev hbmTy0_1 (i : Nat) : BufTy := match i % 128 with
  | 0 => ⟨S256x1, .i32⟩
  | 1 => ⟨S1000000x128, .f32⟩
  | _ => ⟨S256x128, .f32⟩

abbrev hbmTy (i : Nat) : BufTy := match i / 128 with
  | 0 => hbmTy0_0 i
  | 1 => hbmTy0_1 i
  | _ => ⟨S256x128, .f32⟩

abbrev bufTy : (tb : Table) → Fin (tcTables nBuf tb) → BufTy
  | .hbm, ⟨i, _⟩ => hbmTy i
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call0_cst : Ref sig .tc := ⟨.hbm, 40, rfl⟩
abbrev main_call0_v0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_cst : Ref sig .tc := ⟨.hbm, 59, rfl⟩
abbrev main_call1_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_1 : Ref sig .tc := ⟨.hbm, 66, rfl⟩
abbrev main_v42 : Ref sig .tc := ⟨.hbm, 67, rfl⟩
abbrev main_v43 : Ref sig .tc := ⟨.hbm, 68, rfl⟩
abbrev main_c_2 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst : Ref sig .tc := ⟨.hbm, 75, rfl⟩
abbrev main_v49 : Ref sig .tc := ⟨.hbm, 76, rfl⟩
abbrev main_v50 : Ref sig .tc := ⟨.hbm, 77, rfl⟩
abbrev main_cst_3 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_4 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_5 : Ref sig .tc := ⟨.hbm, 89, rfl⟩
abbrev main_v60 : Ref sig .tc := ⟨.hbm, 90, rfl⟩
abbrev main_v61 : Ref sig .tc := ⟨.hbm, 91, rfl⟩
abbrev main_c_6 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_7 : Ref sig .tc := ⟨.hbm, 98, rfl⟩
abbrev main_v67 : Ref sig .tc := ⟨.hbm, 99, rfl⟩
abbrev main_v68 : Ref sig .tc := ⟨.hbm, 100, rfl⟩
abbrev main_c_8 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_9 : Ref sig .tc := ⟨.hbm, 107, rfl⟩
abbrev main_v74 : Ref sig .tc := ⟨.hbm, 108, rfl⟩
abbrev main_v75 : Ref sig .tc := ⟨.hbm, 109, rfl⟩
abbrev main_cst_10 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_11 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_12 : Ref sig .tc := ⟨.hbm, 121, rfl⟩
abbrev main_v85 : Ref sig .tc := ⟨.hbm, 122, rfl⟩
abbrev main_v86 : Ref sig .tc := ⟨.hbm, 123, rfl⟩
abbrev main_c_13 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩

abbrev nD : Nat := 1
abbrev τ : Topo := Topo.v7x

variable {F : FTy → Type} [FloatOps F]

class Facts₀ : Prop where
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  transposes_S256x512x128_S512x256x128_1_0_2 : S256x512x128.Transposes [1, 0, 2] S512x256x128
  transposes_S128x128_S128x128_1_0 : S128x128.Transposes [1, 0] S128x128
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S128_S1x1x128_2 : S128.BroadcastsInDim S1x1x128 (![2] : Fin 1 → Fin S1x1x128.rank)
  bcast_S1x1x128_S512x256x128_0_1_2 : S1x1x128.BroadcastsInDim S512x256x128 (![0, 1, 2] : Fin 3 → Fin S512x256x128.rank)
  bcast_S256x128_S1x256x128_1_2 : S256x128.BroadcastsInDim S1x256x128 (![1, 2] : Fin 2 → Fin S1x256x128.rank)
  bcast_S1x256x128_S512x256x128_0_1_2 : S1x256x128.BroadcastsInDim S512x256x128 (![0, 1, 2] : Fin 3 → Fin S512x256x128.rank)
  bcast_S_S512x256x128 : S_.BroadcastsInDim S512x256x128 (![] : Fin 0 → Fin S512x256x128.rank)
  bcast_S_S256 : S_.BroadcastsInDim S256 (![] : Fin 0 → Fin S256.rank)
  bcast_S256_S256x1_0 : S256.BroadcastsInDim S256x1 (![0] : Fin 1 → Fin S256x1.rank)
  bcast_S_S256x128 : S_.BroadcastsInDim S256x128 (![] : Fin 0 → Fin S256x128.rank)
  reducesTo_S256x128_S256_d1 : S256x128.ReducesTo [1] S256
  h_S_ : 0 < S_.numel
  bcast_S256x1_S256x128_0_1 : S256x1.BroadcastsInDim S256x128 (![0, 1] : Fin 2 → Fin S256x128.rank)
  gather_S1000000x128_S256x512x1_S256x512x128_2_0_n_n_0_2_1128_wf : GatherDims.WF S1000000x128 S256x512x1 S256x512x128 [2] [0] [] [0] [] 2 ![1, 128]
  dot_S256x128_S128x128_S256x128_1_0_0_1_n_n_wf : DotDims.WF S256x128 S128x128 S256x128 [1] [0] [0] [1] [] []
  dot_S512x256x128_S128x128_S512x256x128_2_1_01_0_n_n_wf : DotDims.WF S512x256x128 S128x128 S512x256x128 [2] [1] [0, 1] [0] [] []
  gather_S1000000x128_S256x1_S256x128_1_0_n_n_0_1_1128_wf : GatherDims.WF S1000000x128 S256x1 S256x128 [1] [0] [] [0] [] 1 ![1, 128]
  scatter_S1000000x128_S256x1_S256x128_1_0_0_1_wf : ScatterDims.WF S1000000x128 S256x1 S256x128 [1] [0] [0] 1

variable [Facts₀]

def gather_S1000000x128_S256x512x1_S256x512x128_2_0_n_n_0_2_1128 : GatherDims S1000000x128 S256x512x1 S256x512x128 where
  offsetDims := [2]
  collapsedSliceDims := [0]
  operandBatchingDims := []
  startIndicesBatchingDims := []
  startIndexMap := [0]
  indexVectorDim := 2
  sliceSizes := ![1, 128]
  wf := gather_S1000000x128_S256x512x1_S256x512x128_2_0_n_n_0_2_1128_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S512x256x128_S128x128_S512x256x128_2_1_01_0_n_n : DotDims S512x256x128 S128x128 S512x256x128 where
  lhsContracting := [2]
  rhsContracting := [1]
  lhsNonContracting := [0, 1]
  rhsNonContracting := [0]
  lhsBatch := []
  rhsBatch := []
  wf := dot_S512x256x128_S128x128_S512x256x128_2_1_01_0_n_n_wf
def gather_S1000000x128_S256x1_S256x128_1_0_n_n_0_1_1128 : GatherDims S1000000x128 S256x1 S256x128 where
  offsetDims := [1]
  collapsedSliceDims := [0]
  operandBatchingDims := []
  startIndicesBatchingDims := []
  startIndexMap := [0]
  indexVectorDim := 1
  sliceSizes := ![1, 128]
  wf := gather_S1000000x128_S256x1_S256x128_1_0_n_n_0_1_1128_wf
def scatter_S1000000x128_S256x1_S256x128_1_0_0_1 : ScatterDims S1000000x128 S256x1 S256x128 where
  updateWindowDims := [1]
  insertedWindowDims := [0]
  scatterDimsToOperandDims := [0]
  indexVectorDim := 1
  wf := scatter_S1000000x128_S256x1_S256x128_1_0_0_1_wf

class Facts : Prop extends Facts₀ where

variable [Facts]
-- ==== Proof.Spec.lean ====
/-
  The mathematics both programs compute, stated once, index by index, on the extended reals.

  One "branch" takes a batch of embeddings `v` (256 × 128), a stack `w` of 512 gathered memory slices (512 × 256 × 128),
  three weight matrices `W1`, `W2`, `Wv` (128 × 128, each used as `x ↦ x · Wᵀ`) and three bias rows. For slice `k`,
  batch row `b` and output feature `e` it returns

      ( Σ_d  max( a[b,d] − g[k,b,d] , 0 ) · Wv[e,d] )  +  bv[e]

  where `a[b,d] = (Σ_j v[b,j] · W1[d,j]) + b1[d]` is the embedded sample and
  `g[k,b,d] = (Σ_j w[k,b,j] · W2[d,j]) + b2[d]` the embedded memory slice. The zero of the rectifier is kept as the
  float word both programs print, so that it is the same term on both sides.
-/
import Idealize.ShloMosaic.PureOps.Ideal
import Idealize.ShloMosaic.Lib.ValueIdx

noncomputable section

namespace Cert.Spec

open Idealize.ShloMosaic Idealize.ShloMosaic.ValueIdx

/-- The embedded sample: row `b` of `v · W1ᵀ + b1`, at feature `d`. -/
def sampleEmb (v : FVec Ideal ⟨2, ![256, 128]⟩ .f32) (W1 : FVec Ideal ⟨2, ![128, 128]⟩ .f32) (b1 : FVec Ideal ⟨1, ![128]⟩ .f32)
    (b : Fin 256) (d : Fin 128) : EReal :=
  (∑ j : Fin 128, v (ix2 b j) * W1 (ix2 d j)) + b1 (ix1 d)

/-- The embedded memory slice: row `(k, b)` of `w · W2ᵀ + b2`, at feature `d`. -/
def sliceEmb (w : FVec Ideal ⟨3, ![512, 256, 128]⟩ .f32) (W2 : FVec Ideal ⟨2, ![128, 128]⟩ .f32) (b2 : FVec Ideal ⟨1, ![128]⟩ .f32)
    (k : Fin 512) (b : Fin 256) (d : Fin 128) : EReal :=
  (∑ j : Fin 128, w (ix3 k b j) * W2 (ix2 d j)) + b2 (ix1 d)

/-- One branch: the rectified difference of the two embeddings, through the third linear map. -/
def branch (v : FVec Ideal ⟨2, ![256, 128]⟩ .f32) (W1 : FVec Ideal ⟨2, ![128, 128]⟩ .f32) (b1 : FVec Ideal ⟨1, ![128]⟩ .f32)
    (w : FVec Ideal ⟨3, ![512, 256, 128]⟩ .f32) (W2 : FVec Ideal ⟨2, ![128, 128]⟩ .f32) (b2 : FVec Ideal ⟨1, ![128]⟩ .f32)
    (Wv : FVec Ideal ⟨2, ![128, 128]⟩ .f32) (bv : FVec Ideal ⟨1, ![128]⟩ .f32) : FVec Ideal ⟨3, ![512, 256, 128]⟩ .f32 :=
  fun i =>
    (∑ d : Fin 128, max (sampleEmb v W1 b1 (i 1) d - sliceEmb w W2 b2 (i 0) (i 1) d) (Ideal.ofBits .f32 0x00000000#32)
        * Wv (ix2 (i 2) d))
      + bv (ix1 (i 2))

theorem branch_apply (v : FVec Ideal ⟨2, ![256, 128]⟩ .f32) (W1 : FVec Ideal ⟨2, ![128, 128]⟩ .f32) (b1 : FVec Ideal ⟨1, ![128]⟩ .f32)
    (w : FVec Ideal ⟨3, ![512, 256, 128]⟩ .f32) (W2 : FVec Ideal ⟨2, ![128, 128]⟩ .f32) (b2 : FVec Ideal ⟨1, ![128]⟩ .f32)
    (Wv : FVec Ideal ⟨2, ![128, 128]⟩ .f32) (bv : FVec Ideal ⟨1, ![128]⟩ .f32) (k : Fin 512) (b : Fin 256) (e : Fin 128) :
    branch v W1 b1 w W2 b2 Wv bv (ix3 k b e)
      = (∑ d : Fin 128, max (sampleEmb v W1 b1 b d - sliceEmb w W2 b2 k b d) (Ideal.ofBits .f32 0x00000000#32) * Wv (ix2 e d))
        + bv (ix1 e) := rfl

end Cert.Spec

end
-- ==== Proof.RefValue.lean ====
/-
  The reference, read stage by stage, computes `branch` twice. Its host program gathers the memory slices, embeds the
  samples and the slices with contractions against the weight matrices (the first through an explicit transpose, the
  others by contracting the weights' second axis), subtracts, rectifies against zero, and contracts once more. Read at
  an entry `(k, b, e)`, each contraction is a sum over the shared axis, and the sums are the ones `branch` names.
  The two branches are the same text at the two sets of stages.
-/
import proofs.«154684_j21801253995012_1_alg».proof.Proof.Gen.ReferenceIdeal.Read
import proofs.«154684_j21801253995012_1_alg».proof.Proof.Spec

noncomputable section

namespace Cert.ReferenceIdeal.RefValue

open Cert.ReferenceIdeal Cert.ReferenceIdeal.Gen Cert.ReferenceIdeal.Read Cert.Spec
open Idealize.ShloMosaic Idealize.ShloMosaic.ValueIdx

/-! ### Branch `s` -/

/-- The reference's sample embedding (a product with the transposed first weight, plus the bias row) is `sampleEmb`. -/
theorem sample_s (x0 : (⟨S256x128, .f32⟩ : BufTy).Contents (Elt Ideal)) (x6 : (⟨S128x128, .f32⟩ : BufTy).Contents (Elt Ideal)) (x7 : (⟨S128, .f32⟩ : BufTy).Contents (Elt Ideal)) (b : Fin 256) (d : Fin 128) :
    val_main_v12 (F := Ideal) x0 x6 x7 (ix2 b d) = sampleEmb x0 x6 x7 b d := by
  rw [val_main_v12_apply, val_main_v9_apply, val_main_v11_apply, val_main_v10_apply]
  unfold sampleEmb
  rw [Ideal.addf_def]
  refine congrArg₂ (· + ·) (Finset.sum_congr rfl fun j _ => ?_) ?_
  · rw [val_main_v8_apply]
    exact congrArg₂ (· * ·)
      (congrArg x0 (funext fun a => Fin.ext (by match a with | ⟨0, _⟩ => rfl | ⟨1, _⟩ => rfl)))
      (congrArg x6 (funext fun a => Fin.ext (by match a with | ⟨0, _⟩ => rfl | ⟨1, _⟩ => rfl)))
  · exact congrArg x7 (funext fun a => Fin.ext (by match a with | ⟨0, _⟩ => rfl))

/-- The reference's slice embedding (a contraction of the gathered slices' last axis with the second weight's, plus the
    bias row) is `sliceEmb` of the gathered slices. -/
theorem slice_s (x3 : (⟨S256x512, .i32⟩ : BufTy).Contents (Elt Ideal)) (x5 : (⟨S1000000x128, .f32⟩ : BufTy).Contents (Elt Ideal)) (x8 : (⟨S128x128, .f32⟩ : BufTy).Contents (Elt Ideal))
    (x9 : (⟨S128, .f32⟩ : BufTy).Contents (Elt Ideal)) (k : Fin 512) (b : Fin 256) (d : Fin 128) :
    val_main_v16 (F := Ideal) x3 x5 x8 x9 (ix3 k b d) = sliceEmb (val_main_v7 (F := Ideal) x3 x5) x8 x9 k b d := by
  rw [val_main_v16_apply, val_main_v13_apply, val_main_v15_apply, val_main_v14_apply]
  unfold sliceEmb
  rw [Ideal.addf_def]
  refine congrArg₂ (· + ·) (Finset.sum_congr rfl fun j _ => ?_) ?_
  · exact congrArg₂ (· * ·)
      (congrArg (val_main_v7 (F := Ideal) x3 x5) (funext fun a => Fin.ext (by match a with | ⟨0, _⟩ => rfl | ⟨1, _⟩ => rfl | ⟨2, _⟩ => rfl)))
      (congrArg x8 (funext fun a => Fin.ext (by match a with | ⟨0, _⟩ => rfl | ⟨1, _⟩ => rfl)))
  · exact congrArg x9 (funext fun a => Fin.ext (by match a with | ⟨0, _⟩ => rfl))

/-- The rectified difference: the sample embedding repeated over the slices, minus the slice embedding, against zero. -/
theorem hidden_s (x0 : (⟨S256x128, .f32⟩ : BufTy).Contents (Elt Ideal)) (x3 : (⟨S256x512, .i32⟩ : BufTy).Contents (Elt Ideal)) (x5 : (⟨S1000000x128, .f32⟩ : BufTy).Contents (Elt Ideal))
    (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
    (k : Fin 512) (b : Fin 256) (d : Fin 128) :
    val_main_v20 (F := Ideal) x0 x3 x5 x6 x7 x8 x9 (ix3 k b d)
      = max (sampleEmb x0 x6 x7 b d - sliceEmb (val_main_v7 (F := Ideal) x3 x5) x8 x9 k b d) (Ideal.ofBits .f32 0x00000000#32) := by
  rw [val_main_v20_apply, val_main_v19_apply, val_main_v18_apply, val_main_v17_apply, val_main_call0_v0_apply,
    val_main_call0_cst_apply, Ideal.maximumf_def, Ideal.subf_def, Ideal.ofBits_def]
  refine congrArg₂ max (congrArg₂ (· - ·) ?_ ?_) rfl
  · exact (congrArg (val_main_v12 (F := Ideal) x0 x6 x7)
      (funext fun a => Fin.ext (by match a with | ⟨0, _⟩ => rfl | ⟨1, _⟩ => rfl))).trans (sample_s x0 x6 x7 b d)
  · exact slice_s x3 x5 x8 x9 k b d

/-- The reference's result for this branch is `branch` of its arguments and the gathered slices. -/
theorem result_s (x0 : (⟨S256x128, .f32⟩ : BufTy).Contents (Elt Ideal)) (x3 : (⟨S256x512, .i32⟩ : BufTy).Contents (Elt Ideal)) (x5 : (⟨S1000000x128, .f32⟩ : BufTy).Contents (Elt Ideal))
    (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal)) :
    val_main_v24 (F := Ideal) x0 x3 x5 x6 x7 x8 x9 x10 x11
      = branch x0 x6 x7 (val_main_v7 (F := Ideal) x3 x5) x8 x9 x10 x11 := by
  funext i
  obtain ⟨k, b, e, rfl⟩ : ∃ (k : Fin 512) (b : Fin 256) (e : Fin 128), i = ix3 k b e := ⟨i 0, i 1, i 2, eq_ix3 i⟩
  rw [branch_apply, val_main_v24_apply, val_main_v21_apply, val_main_v23_apply, val_main_v22_apply, Ideal.addf_def]
  refine congrArg₂ (· + ·) (Finset.sum_congr rfl fun d _ => ?_) ?_
  · refine congrArg₂ (· * ·) ?_ ?_
    · exact (congrArg (val_main_v20 (F := Ideal) x0 x3 x5 x6 x7 x8 x9)
        (funext fun a => Fin.ext (by match a with | ⟨0, _⟩ => rfl | ⟨1, _⟩ => rfl | ⟨2, _⟩ => rfl))).trans
        (hidden_s x0 x3 x5 x6 x7 x8 x9 k b d)
    · exact congrArg x10 (funext fun a => Fin.ext (by match a with | ⟨0, _⟩ => rfl | ⟨1, _⟩ => rfl))
  · exact congrArg x11 (funext fun a => Fin.ext (by match a with | ⟨0, _⟩ => rfl))

/-! ### Branch `t` -/

/-- The reference's sample embedding (a product with the transposed first weight, plus the bias row) is `sampleEmb`. -/
theorem sample_t (x1 : (⟨S256x128, .f32⟩ : BufTy).Contents (Elt Ideal)) (x12 : (⟨S128x128, .f32⟩ : BufTy).Contents (Elt Ideal)) (x13 : (⟨S128, .f32⟩ : BufTy).Contents (Elt Ideal)) (b : Fin 256) (d : Fin 128) :
    val_main_v29 (F := Ideal) x1 x12 x13 (ix2 b d) = sampleEmb x1 x12 x13 b d := by
  rw [val_main_v29_apply, val_main_v26_apply, val_main_v28_apply, val_main_v27_apply]
  unfold sampleEmb
  rw [Ideal.addf_def]
  refine congrArg₂ (· + ·) (Finset.sum_congr rfl fun j _ => ?_) ?_
  · rw [val_main_v25_apply]
    exact congrArg₂ (· * ·)
      (congrArg x1 (funext fun a => Fin.ext (by match a with | ⟨0, _⟩ => rfl | ⟨1, _⟩ => rfl)))
      (congrArg x12 (funext fun a => Fin.ext (by match a with | ⟨0, _⟩ => rfl | ⟨1, _⟩ => rfl)))
  · exact congrArg x13 (funext fun a => Fin.ext (by match a with | ⟨0, _⟩ => rfl))

/-- The reference's slice embedding (a contraction of the gathered slices' last axis with the second weight's, plus the
    bias row) is `sliceEmb` of the gathered slices. -/
theorem slice_t (x3 : (⟨S256x512, .i32⟩ : BufTy).Contents (Elt Ideal)) (x5 : (⟨S1000000x128, .f32⟩ : BufTy).Contents (Elt Ideal)) (x14 : (⟨S128x128, .f32⟩ : BufTy).Contents (Elt Ideal))
    (x15 : (⟨S128, .f32⟩ : BufTy).Contents (Elt Ideal)) (k : Fin 512) (b : Fin 256) (d : Fin 128) :
    val_main_v33 (F := Ideal) x3 x5 x14 x15 (ix3 k b d) = sliceEmb (val_main_v7 (F := Ideal) x3 x5) x14 x15 k b d := by
  rw [val_main_v33_apply, val_main_v30_apply, val_main_v32_apply, val_main_v31_apply]
  unfold sliceEmb
  rw [Ideal.addf_def]
  refine congrArg₂ (· + ·) (Finset.sum_congr rfl fun j _ => ?_) ?_
  · exact congrArg₂ (· * ·)
      (congrArg (val_main_v7 (F := Ideal) x3 x5) (funext fun a => Fin.ext (by match a with | ⟨0, _⟩ => rfl | ⟨1, _⟩ => rfl | ⟨2, _⟩ => rfl)))
      (congrArg x14 (funext fun a => Fin.ext (by match a with | ⟨0, _⟩ => rfl | ⟨1, _⟩ => rfl)))
  · exact congrArg x15 (funext fun a => Fin.ext (by match a with | ⟨0, _⟩ => rfl))

/-- The rectified difference: the sample embedding repeated over the slices, minus the slice embedding, against zero. -/
theorem hidden_t (x1 : (⟨S256x128, .f32⟩ : BufTy).Contents (Elt Ideal)) (x3 : (⟨S256x512, .i32⟩ : BufTy).Contents (Elt Ideal)) (x5 : (⟨S1000000x128, .f32⟩ : BufTy).Contents (Elt Ideal))
    (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))
    (k : Fin 512) (b : Fin 256) (d : Fin 128) :
    val_main_v37 (F := Ideal) x1 x3 x5 x12 x13 x14 x15 (ix3 k b d)
      = max (sampleEmb x1 x12 x13 b d - sliceEmb (val_main_v7 (F := Ideal) x3 x5) x14 x15 k b d) (Ideal.ofBits .f32 0x00000000#32) := by
  rw [val_main_v37_apply, val_main_v36_apply, val_main_v35_apply, val_main_v34_apply, val_main_call1_v0_apply,
    val_main_call1_cst_apply, Ideal.maximumf_def, Ideal.subf_def, Ideal.ofBits_def]
  refine congrArg₂ max (congrArg₂ (· - ·) ?_ ?_) rfl
  · exact (congrArg (val_main_v29 (F := Ideal) x1 x12 x13)
      (funext fun a => Fin.ext (by match a with | ⟨0, _⟩ => rfl | ⟨1, _⟩ => rfl))).trans (sample_t x1 x12 x13 b d)
  · exact slice_t x3 x5 x14 x15 k b d

/-- The reference's result for this branch is `branch` of its arguments and the gathered slices. -/
theorem result_t (x1 : (⟨S256x128, .f32⟩ : BufTy).Contents (Elt Ideal)) (x3 : (⟨S256x512, .i32⟩ : BufTy).Contents (Elt Ideal)) (x5 : (⟨S1000000x128, .f32⟩ : BufTy).Contents (Elt Ideal))
    (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))
    (x16 : (⟨S128x128, .f32⟩ : BufTy).Contents (Elt Ideal)) (x17 : (⟨S128, .f32⟩ : BufTy).Contents (Elt Ideal)) :
    val_main_v41 (F := Ideal) x1 x3 x5 x12 x13 x14 x15 x16 x17
      = branch x1 x12 x13 (val_main_v7 (F := Ideal) x3 x5) x14 x15 x16 x17 := by
  funext i
  obtain ⟨k, b, e, rfl⟩ : ∃ (k : Fin 512) (b : Fin 256) (e : Fin 128), i = ix3 k b e := ⟨i 0, i 1, i 2, eq_ix3 i⟩
  rw [branch_apply, val_main_v41_apply, val_main_v38_apply, val_main_v40_apply, val_main_v39_apply, Ideal.addf_def]
  refine congrArg₂ (· + ·) (Finset.sum_congr rfl fun d _ => ?_) ?_
  · refine congrArg₂ (· * ·) ?_ ?_
    · exact (congrArg (val_main_v37 (F := Ideal) x1 x3 x5 x12 x13 x14 x15)
        (funext fun a => Fin.ext (by match a with | ⟨0, _⟩ => rfl | ⟨1, _⟩ => rfl | ⟨2, _⟩ => rfl))).trans
        (hidden_t x1 x3 x5 x12 x13 x14 x15 k b d)
    · exact congrArg x16 (funext fun a => Fin.ext (by match a with | ⟨0, _⟩ => rfl | ⟨1, _⟩ => rfl))
  · exact congrArg x17 (funext fun a => Fin.ext (by match a with | ⟨0, _⟩ => rfl))

end Cert.ReferenceIdeal.RefValue

end
-- ==== Proof.KernelProducts.lean ====
/-
  The kernel's two matrix products read at an entry. Both are plain row-by-column products into a zero
  accumulator: the small one embeds the 256 samples, the tall one acts on the 32 · 256 = 8192 flattened rows of a
  block of memory slices. At the ideal values each entry is the finite sum of the row's entries times the
  column's, with no rounding and no order left in it.
-/
import proofs.«154684_j21801253995012_1_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Products

open Cert.KernelIdeal Cert.KernelIdeal.Gen Idealize.ShloMosaic Idealize.ShloMosaic.ValueIdx

theorem lhsSmall_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhsSmall_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
theorem rhsSmall_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
theorem rhsSmall_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- The product into a zero accumulator, read at row `r`, column `c`: the sum over the shared axis of the row's
    entries times the column's. -/
theorem matmulSmall_apply {φ₁ φ₂ : FTy} (lhs : FVec Ideal S256x128 φ₁) (rhs : FVec Ideal S128x128 φ₂) (r : Fin 256) (c : Fin 128) :
    matmul dot_S256x128_S128x128_S256x128_1_0_0_1_n_n none lhs rhs (constant S256x128 .f32 0x00000000#32) (ix2 r c)
      = ∑ k : Fin 128, lhs (ix2 r k) * rhs (ix2 k c) := by
  simp only [matmul]
  rw [Ideal.matmul_constant_zero_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx (ix2 r c) ((ValueIdx.contrEquiv1 dot_S256x128_S128x128_S256x128_1_0_0_1_n_n 128 rfl rfl).symm k) = ix2 r k := funext fun a => Fin.ext (by
    match a with
    | ⟨0, _⟩ => exact lhsSmall_0 _ _
    | ⟨1, _⟩ => exact (lhsSmall_1 _ _).trans hk)
  have er : dot_S256x128_S128x128_S256x128_1_0_0_1_n_n.rhsIdx (ix2 r c) ((ValueIdx.contrEquiv1 dot_S256x128_S128x128_S256x128_1_0_0_1_n_n 128 rfl rfl).symm k) = ix2 k c := funext fun a => Fin.ext (by
    match a with
    | ⟨0, _⟩ => exact (rhsSmall_0 _ _).trans hk
    | ⟨1, _⟩ => exact rhsSmall_1 _ _)
  rw [el, er]

theorem lhsTall_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhsTall_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhsTall_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhsTall_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The product into a zero accumulator, read at row `r`, column `c`: the sum over the shared axis of the row's
    entries times the column's. -/
theorem matmulTall_apply {φ₁ φ₂ : FTy} (lhs : FVec Ideal S8192x128 φ₁) (rhs : FVec Ideal S128x128 φ₂) (r : Fin 8192) (c : Fin 128) :
    matmul dot_S8192x128_S128x128_S8192x128_1_0_0_1_n_n none lhs rhs (constant S8192x128 .f32 0x00000000#32) (ix2 r c)
      = ∑ k : Fin 128, lhs (ix2 r k) * rhs (ix2 k c) := by
  simp only [matmul]
  rw [Ideal.matmul_constant_zero_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 r c) ((ValueIdx.contrEquiv1 dot_S8192x128_S128x128_S8192x128_1_0_0_1_n_n 128 rfl rfl).symm k) = ix2 r k := funext fun a => Fin.ext (by
    match a with
    | ⟨0, _⟩ => exact lhsTall_0 _ _
    | ⟨1, _⟩ => exact (lhsTall_1 _ _).trans hk)
  have er : dot_S8192x128_S128x128_S8192x128_1_0_0_1_n_n.rhsIdx (ix2 r c) ((ValueIdx.contrEquiv1 dot_S8192x128_S128x128_S8192x128_1_0_0_1_n_n 128 rfl rfl).symm k) = ix2 k c := funext fun a => Fin.ext (by
    match a with
    | ⟨0, _⟩ => exact (rhsTall_0 _ _).trans hk
    | ⟨1, _⟩ => exact rhsTall_1 _ _)
  rw [el, er]

end Cert.KernelIdeal.Products

end
-- ==== Proof.Relay.lean ====
/-
  Three re-layings the kernel body uses, read at an entry. A block of 32 slices of 256 rows is flattened to 8192 rows
  (row `k · 256 + b` is row `b` of slice `k`) and cut back; and one 256 × 128 sheet is repeated over the 32 slices.
  Each is a statement about positions only, true of entries of any type.
-/
import Idealize.ShloMosaic.Lib.ValueIdx
import Idealize.ShloMosaic.Lib.Pipeline.Value
import Idealize.ShloMosaic.Lib.ValueLayout

noncomputable section

namespace Cert.Relay

open Idealize.ShloMosaic Idealize.ShloMosaic.ValueIdx

variable {α : Type}

/-- The flat row of slice `k`, row `b`. -/
abbrev flatRow (k : Fin 32) (b : Fin 256) : Fin 8192 := ⟨k.val * 256 + b.val, by have := k.isLt; have := b.isLt; omega⟩

/-- The flattened block at flat row `k · 256 + b` is the block at `(k, b)`. -/
theorem flatten_apply (x : (⟨3, ![32, 256, 128]⟩ : Shape).Idx → α) (h : (⟨3, ![32, 256, 128]⟩ : Shape).ShapeCasts ⟨2, ![8192, 128]⟩)
    (k : Fin 32) (b : Fin 256) (e : Fin 128) :
    shapeCast ⟨2, ![8192, 128]⟩ x h (ix2 (flatRow k b) e) = x (ix3 k b e) :=
  shapeCast_apply x h _ _ (by
    rw [Shape.rowMajor_val_three, Shape.rowMajor_val_two]
    show (k.val * 256 + b.val) * 128 + e.val = (k.val * 256 + b.val) * 128 + e.val
    rfl)

/-- The flat array cut back into slices: at `(k, b)` it is flat row `k · 256 + b`. -/
theorem unflatten_apply (x : (⟨2, ![8192, 128]⟩ : Shape).Idx → α) (h : (⟨2, ![8192, 128]⟩ : Shape).ShapeCasts ⟨3, ![32, 256, 128]⟩)
    (k : Fin 32) (b : Fin 256) (e : Fin 128) :
    shapeCast ⟨3, ![32, 256, 128]⟩ x h (ix3 k b e) = x (ix2 (flatRow k b) e) :=
  shapeCast_apply x h _ _ (by
    rw [Shape.rowMajor_val_three, Shape.rowMajor_val_two]
    show (k.val * 256 + b.val) * 128 + e.val = (k.val * 256 + b.val) * 128 + e.val
    rfl)

/-- One sheet repeated over the slices: at `(k, b, e)` it is the sheet at `(b, e)`. -/
theorem repeat_apply (v : (⟨3, ![1, 256, 128]⟩ : Shape).Idx → α) (h : (⟨3, ![1, 256, 128]⟩ : Shape).Broadcasts ⟨3, ![32, 256, 128]⟩)
    (k : Fin 32) (b : Fin 256) (e : Fin 128) :
    broadcastTo ⟨3, ![32, 256, 128]⟩ v h (ix3 k b e) = v (ix3 (0 : Fin 1) b e) := by
  refine broadcastTo_apply v h (ix3 k b e) (ix3 (0 : Fin 1) b e) fun ax => ?_
  match ax with
  | ⟨0, _⟩ => rfl
  | ⟨1, _⟩ => rfl
  | ⟨2, _⟩ => rfl

end Cert.Relay

end
-- ==== Proof.KernelPayload.lean ====
/-
  What the kernel body stores for one branch, read at an entry. The body flattens its block of 32 memory slices to
  8192 rows, embeds them with one tall product, embeds the 256 samples with a small one, repeats the sample
  embedding over the slices, rectifies the difference, and sends it through a third tall product; then cuts the
  8192 rows back into 32 slices. At slice `k`, row `b`, feature `e` of the block this is

      ( Σ_d max( (Σ_j v[b,j]·A[j,d] + a[d]) − (Σ_j w[k·256+b, j]·B[j,d] + b'[d]) , 0 ) · C[d,e] ) + c[e]

  for the three (already transposed) weight blocks `A`, `B`, `C` the body loads.
-/
import proofs.«154684_j21801253995012_1_alg».proof.Proof.Gen.KernelIdeal.Skeleton
import proofs.«154684_j21801253995012_1_alg».proof.Proof.KernelProducts
import proofs.«154684_j21801253995012_1_alg».proof.Proof.Relay

noncomputable section

namespace Cert.KernelIdeal.Payload

open Cert.KernelIdeal Cert.KernelIdeal.Gen Cert.KernelIdeal.Products Cert.Relay
open Idealize.ShloMosaic Idealize.ShloMosaic.ValueIdx

theorem branch_body_apply (v3 : FVec Ideal S256x128 .bf16) (v6 : FVec Ideal S8192x128 .bf16)
    (v17 : FVec Ideal S128x128 .bf16) (v18 : Vec Ideal S128 .f32) (v20 : FVec Ideal S128x128 .bf16) (v21 : Vec Ideal S128 .f32)
    (v23 : FVec Ideal S128x128 .bf16) (v24 : Vec Ideal S128 .f32) (k : Fin 32) (b : Fin 256) (e : Fin 128) :
    k0_pay2 (F := Ideal) v3 v6 v17 v18 v20 v21 v23 v24 (ix3 k b e)
      = (∑ d : Fin 128,
          max (((∑ j : Fin 128, v3 (ix2 b j) * v17 (ix2 j d)) + v18 (ix1 d))
                - ((∑ j : Fin 128, v6 (ix2 (flatRow k b) j) * v20 (ix2 j d)) + v21 (ix1 d)))
              (Ideal.ofBits .f32 0x00000000#32) * v23 (ix2 d e))
        + v24 (ix1 e) := by
  unfold k0_pay2
  simp only [unflatten_apply, addf_apply, subf_apply, maximumf_apply, broadcast_apply, truncf_apply, matmulTall_apply,
    matmulSmall_apply, flatten_apply, repeat_apply, shapeCast_self, shapeCast_ab_1ab_apply, shapeCast_a_1a_apply,
    broadcastTo_1b_ab_apply]
  rfl

end Cert.KernelIdeal.Payload

end
-- ==== Proof.KernelEntry.lean ====
/-
  What the region finds in the arrays the host lines before it computed: the gathered memory slices (a row gather by
  the wrapped indices, then the two leading axes swapped), and each weight matrix transposed. The narrowing to the
  16-bit format the kernel's windows carry is the identity at the ideal values, so read at an entry these are the
  gathered slices themselves and the weights with their two indices exchanged.
-/
import proofs.«154684_j21801253995012_1_alg».proof.Proof.KernelIdealFrame
import Idealize.ShloMosaic.Lib.ValueIdx
import Idealize.ShloMosaic.Lib.ValueLayout
import Idealize.ShloMosaic.Lib.StableHlo.Run

noncomputable section

namespace Cert.KernelIdeal.Entry

open Cert.KernelIdeal Cert.KernelIdeal.Gen Cert.KernelIdeal.GenP
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The gathered memory slices, slice-major: for each of the 512 index columns, the 256 rows of the second memory bank
    the (wrapped) indices name. -/
def slices (mem : (⟨S1000000x128, .f32⟩ : BufTy).Contents (Elt Ideal)) (idx : (⟨S256x512, .i32⟩ : BufTy).Contents (Elt Ideal)) :
    (⟨S512x256x128, .f32⟩ : BufTy).Contents (Elt Ideal) :=
  transpose S512x256x128 [1, 0, 2]
    (Host.gather gather_S1000000x128_S256x512x1_S256x512x128_2_0_n_n_0_2_1128 mem
      (broadcastInDim S256x512x1 ![0, 1] bcast_S256x512_S256x512x1_0_1
        (select (cmpi .slt idx (broadcastInDim S256x512 ![] bcast_S_S256x512 (constantI S_ 32 0#32)))
          (addi idx (broadcastInDim S256x512 ![] bcast_S_S256x512 (constantI S_ 32 1000000#32))) idx)))
    transposes_S256x512x128_S512x256x128_1_0_2

/-- The window of memory slices is staged from the gathered slices. -/
theorem V_slices (c : Dev nD) :
    (V m c main_v8 : S512x256x128.Idx → EReal) = truncf (F := Ideal) .bf16 (slices (m ((c.tc : Thread nD τ).loc main_arg5)) (m ((c.tc : Thread nD τ).loc main_arg3))) bitsLt_bf16_f32 := by
  show StableHlo.after hostOps0 (fun b => m (c, b)) (Proc.devRef .tc main_v8) = _
  after_results
  rfl

theorem V_slices_apply (c : Dev nD) (i : S512x256x128.Idx) :
    V m c main_v8 i = slices (m ((c.tc : Thread nD τ).loc main_arg5)) (m ((c.tc : Thread nD τ).loc main_arg3)) i := by
  rw [V_slices]; rfl

/-- Window array `main_v10` is `main_arg6` transposed. -/
theorem V_v10 (c : Dev nD) :
    (V m c main_v10 : S128x128.Idx → EReal) = truncf (F := Ideal) .bf16 (transpose S128x128 [1, 0] (m ((c.tc : Thread nD τ).loc main_arg6)) transposes_S128x128_S128x128_1_0) bitsLt_bf16_f32 := by
  show StableHlo.after hostOps0 (fun b => m (c, b)) (Proc.devRef .tc main_v10) = _
  after_results

theorem V_v10_apply (c : Dev nD) (j d : Fin 128) :
    V m c main_v10 (ix2 j d) = m ((c.tc : Thread nD τ).loc main_arg6) (ix2 d j) := by
  rw [V_v10]
  exact transpose_ix2_apply _ transposes_S128x128_S128x128_1_0 j d

/-- Window array `main_v12` is `main_arg8` transposed. -/
theorem V_v12 (c : Dev nD) :
    (V m c main_v12 : S128x128.Idx → EReal) = truncf (F := Ideal) .bf16 (transpose S128x128 [1, 0] (m ((c.tc : Thread nD τ).loc main_arg8)) transposes_S128x128_S128x128_1_0) bitsLt_bf16_f32 := by
  show StableHlo.after hostOps0 (fun b => m (c, b)) (Proc.devRef .tc main_v12) = _
  after_results

theorem V_v12_apply (c : Dev nD) (j d : Fin 128) :
    V m c main_v12 (ix2 j d) = m ((c.tc : Thread nD τ).loc main_arg8) (ix2 d j) := by
  rw [V_v12]
  exact transpose_ix2_apply _ transposes_S128x128_S128x128_1_0 j d

/-- Window array `main_v14` is `main_arg10` transposed. -/
theorem V_v14 (c : Dev nD) :
    (V m c main_v14 : S128x128.Idx → EReal) = truncf (F := Ideal) .bf16 (transpose S128x128 [1, 0] (m ((c.tc : Thread nD τ).loc main_arg10)) transposes_S128x128_S128x128_1_0) bitsLt_bf16_f32 := by
  show StableHlo.after hostOps0 (fun b => m (c, b)) (Proc.devRef .tc main_v14) = _
  after_results

theorem V_v14_apply (c : Dev nD) (j d : Fin 128) :
    V m c main_v14 (ix2 j d) = m ((c.tc : Thread nD τ).loc main_arg10) (ix2 d j) := by
  rw [V_v14]
  exact transpose_ix2_apply _ transposes_S128x128_S128x128_1_0 j d

/-- Window array `main_v16` is `main_arg12` transposed. -/
theorem V_v16 (c : Dev nD) :
    (V m c main_v16 : S128x128.Idx → EReal) = truncf (F := Ideal) .bf16 (transpose S128x128 [1, 0] (m ((c.tc : Thread nD τ).loc main_arg12)) transposes_S128x128_S128x128_1_0) bitsLt_bf16_f32 := by
  show StableHlo.after hostOps0 (fun b => m (c, b)) (Proc.devRef .tc main_v16) = _
  after_results

theorem V_v16_apply (c : Dev nD) (j d : Fin 128) :
    V m c main_v16 (ix2 j d) = m ((c.tc : Thread nD τ).loc main_arg12) (ix2 d j) := by
  rw [V_v16]
  exact transpose_ix2_apply _ transposes_S128x128_S128x128_1_0 j d

/-- Window array `main_v18` is `main_arg14` transposed. -/
theorem V_v18 (c : Dev nD) :
    (V m c main_v18 : S128x128.Idx → EReal) = truncf (F := Ideal) .bf16 (transpose S128x128 [1, 0] (m ((c.tc : Thread nD τ).loc main_arg14)) transposes_S128x128_S128x128_1_0) bitsLt_bf16_f32 := by
  show StableHlo.after hostOps0 (fun b => m (c, b)) (Proc.devRef .tc main_v18) = _
  after_results

theorem V_v18_apply (c : Dev nD) (j d : Fin 128) :
    V m c main_v18 (ix2 j d) = m ((c.tc : Thread nD τ).loc main_arg14) (ix2 d j) := by
  rw [V_v18]
  exact transpose_ix2_apply _ transposes_S128x128_S128x128_1_0 j d

/-- Window array `main_v20` is `main_arg16` transposed. -/
theorem V_v20 (c : Dev nD) :
    (V m c main_v20 : S128x128.Idx → EReal) = truncf (F := Ideal) .bf16 (transpose S128x128 [1, 0] (m ((c.tc : Thread nD τ).loc main_arg16)) transposes_S128x128_S128x128_1_0) bitsLt_bf16_f32 := by
  show StableHlo.after hostOps0 (fun b => m (c, b)) (Proc.devRef .tc main_v20) = _
  after_results

theorem V_v20_apply (c : Dev nD) (j d : Fin 128) :
    V m c main_v20 (ix2 j d) = m ((c.tc : Thread nD τ).loc main_arg16) (ix2 d j) := by
  rw [V_v20]
  exact transpose_ix2_apply _ transposes_S128x128_S128x128_1_0 j d

end Cert.KernelIdeal.Entry

end
-- ==== Proof.KernelBlocks.lean ====
/-
  From blocks to arrays. The region runs sixteen points; point `t` stages slices `32·t … 32·t + 31` of the gathered
  memory, the whole of every other input, and writes back the same sixteenth of each result. Every input block is
  read where the array index says (a block's coordinate is block index × block size + the coordinate inside), so
  what a point writes back is the corresponding sixteenth of `branch` of the argument arrays; the sixteen blocks
  tile the result, so each result array ends holding `branch`.
-/
import proofs.«154684_j21801253995012_1_alg».proof.Proof.KernelIdealFrame
import proofs.«154684_j21801253995012_1_alg».proof.Proof.KernelPayload
import proofs.«154684_j21801253995012_1_alg».proof.Proof.KernelEntry
import proofs.«154684_j21801253995012_1_alg».proof.Proof.Spec

set_option maxRecDepth 16384

noncomputable section

namespace Cert.KernelIdeal.Blocks

open Cert.KernelIdeal Cert.KernelIdeal.Gen Cert.KernelIdeal.GenP Cert.KernelIdeal.Payload Cert.KernelIdeal.Entry Cert.Spec Cert.Relay
open Idealize.ShloMosaic Idealize.ShloMosaic.TcCoe Idealize.ShloMosaic.ValueIdx Idealize.SL.Sem
open Idealize.ShloMosaic.Pipeline (Dat Cfg Window)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps, decided over the sixteen points -/

theorem index_0 : ∀ t : Fin cfg0.N, win0_0.index t (0 : Fin 2) = 0 ∧ win0_0.index t (1 : Fin 2) = 0 :=
  (by decide +kernel : ∀ t : Fin grid0.N, _)
theorem index_1 : ∀ t : Fin cfg0.N, win0_1.index t (0 : Fin 2) = 0 ∧ win0_1.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_5 : ∀ t : Fin cfg0.N, win0_5.index t (0 : Fin 2) = 0 ∧ win0_5.index t (1 : Fin 2) = 0 :=
  (by decide +kernel : ∀ t : Fin grid0.N, _)
theorem index_7 : ∀ t : Fin cfg0.N, win0_7.index t (0 : Fin 2) = 0 ∧ win0_7.index t (1 : Fin 2) = 0 :=
  (by decide +kernel : ∀ t : Fin grid0.N, _)
theorem index_9 : ∀ t : Fin cfg0.N, win0_9.index t (0 : Fin 2) = 0 ∧ win0_9.index t (1 : Fin 2) = 0 :=
  (by decide +kernel : ∀ t : Fin grid0.N, _)
theorem index_11 : ∀ t : Fin cfg0.N, win0_11.index t (0 : Fin 2) = 0 ∧ win0_11.index t (1 : Fin 2) = 0 :=
  (by decide +kernel : ∀ t : Fin grid0.N, _)
theorem index_13 : ∀ t : Fin cfg0.N, win0_13.index t (0 : Fin 2) = 0 ∧ win0_13.index t (1 : Fin 2) = 0 :=
  (by decide +kernel : ∀ t : Fin grid0.N, _)
theorem index_4 : ∀ t : Fin cfg0.N, win0_4.index t (0 : Fin 1) = 0 :=
  (by decide +kernel : ∀ t : Fin grid0.N, _)
theorem index_6 : ∀ t : Fin cfg0.N, win0_6.index t (0 : Fin 1) = 0 :=
  (by decide +kernel : ∀ t : Fin grid0.N, _)
theorem index_8 : ∀ t : Fin cfg0.N, win0_8.index t (0 : Fin 1) = 0 :=
  (by decide +kernel : ∀ t : Fin grid0.N, _)
theorem index_10 : ∀ t : Fin cfg0.N, win0_10.index t (0 : Fin 1) = 0 :=
  (by decide +kernel : ∀ t : Fin grid0.N, _)
theorem index_12 : ∀ t : Fin cfg0.N, win0_12.index t (0 : Fin 1) = 0 :=
  (by decide +kernel : ∀ t : Fin grid0.N, _)
theorem index_14 : ∀ t : Fin cfg0.N, win0_14.index t (0 : Fin 1) = 0 :=
  (by decide +kernel : ∀ t : Fin grid0.N, _)
theorem index_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem index_15 : ∀ t : Fin cfg0.N, win0_15.index t (0 : Fin 3) = t.val ∧ win0_15.index t (1 : Fin 3) = 0 ∧ win0_15.index t (2 : Fin 3) = 0 :=
  (by decide +kernel : ∀ t : Fin grid0.N, _)
theorem index_16 : ∀ t : Fin cfg0.N, win0_16.index t (0 : Fin 3) = t.val ∧ win0_16.index t (1 : Fin 3) = 0 ∧ win0_16.index t (2 : Fin 3) = 0 :=
  (by decide +kernel : ∀ t : Fin grid0.N, _)

/-- Slice `k` of point `t`'s block is slice `32·t + k` of the array. -/
abbrev slabRow (t : Fin cfg0.N) (k : Fin 32) : Fin 512 :=
  ⟨t.val * 32 + k.val, by have h : t.val < 16 := lt_of_lt_of_eq t.isLt N_0; have := k.isLt; omega⟩

/-! ## The body's two stores, over any loaded blocks -/

theorem body15_apply (X0 : Vec Ideal S256x128 .f32) (X2 : Vec Ideal S32x256x128 .bf16) (X3 : Vec Ideal S128x128 .bf16) (X4 : Vec Ideal S128 .f32)
    (X5 : Vec Ideal S128x128 .bf16) (X6 : Vec Ideal S128 .f32) (X7 : Vec Ideal S128x128 .bf16) (X8 : Vec Ideal S128 .f32)
    (k : Fin 32) (b : Fin 256) (e : Fin 128) :
    k0_pay1 (F := Ideal) (k0_pay5 X7) X8 (k0_pay9 X0 X3 X4) (k0_pay10 X2 X5) (k0_pay11 X6) (ix3 k b e)
      = (∑ d : Fin 128,
          max (((∑ j : Fin 128, X0 (ix2 b j) * X3 (ix2 j d)) + X4 (ix1 d))
                - ((∑ j : Fin 128, X2 (ix3 k b j) * X5 (ix2 j d)) + X6 (ix1 d)))
              (Ideal.ofBits .f32 0x00000000#32) * X7 (ix2 d e))
        + X8 (ix1 e) := by
  have h : k0_pay1 (F := Ideal) (k0_pay5 X7) X8 (k0_pay9 X0 X3 X4) (k0_pay10 X2 X5) (k0_pay11 X6)
      = k0_pay2 (F := Ideal) (k0_pay3 X0) (k0_pay4 X2) (k0_pay6 X3) X4 (k0_pay7 X5) X6 (k0_pay8 X7) X8 := rfl
  rw [h, branch_body_apply]
  simp only [k0_pay3, k0_pay4, k0_pay6, k0_pay7, k0_pay8, truncf_apply, shapeCast_self, flatten_apply]

theorem body16_apply (X1 : Vec Ideal S256x128 .f32) (X2 : Vec Ideal S32x256x128 .bf16) (X9 : Vec Ideal S128x128 .bf16) (X10 : Vec Ideal S128 .f32)
    (X11 : Vec Ideal S128x128 .bf16) (X12 : Vec Ideal S128 .f32) (X13 : Vec Ideal S128x128 .bf16) (X14 : Vec Ideal S128 .f32)
    (k : Fin 32) (b : Fin 256) (e : Fin 128) :
    k0_pay2 (F := Ideal) (k0_pay3 X1) (k0_pay4 X2) (k0_pay6 X9) X10 (k0_pay7 X11) X12 (k0_pay8 X13) X14 (ix3 k b e)
      = (∑ d : Fin 128,
          max (((∑ j : Fin 128, X1 (ix2 b j) * X9 (ix2 j d)) + X10 (ix1 d))
                - ((∑ j : Fin 128, X2 (ix3 k b j) * X11 (ix2 j d)) + X12 (ix1 d)))
              (Ideal.ofBits .f32 0x00000000#32) * X13 (ix2 d e))
        + X14 (ix1 e) := by
  rw [branch_body_apply]
  simp only [k0_pay3, k0_pay4, k0_pay6, k0_pay7, k0_pay8, truncf_apply, shapeCast_self, flatten_apply]

variable (m : (ℓ : Loc nD τ sig) → Buf (Elt Ideal) ℓ)

/-! ## Each input block, read where the array index says -/

theorem blk0_apply (c : Dev nD) (t : Fin cfg0.N) (p : Fin 256) (q : Fin 128) :
    iblk m c 0 t (ix2 p q) = V m c main_arg0 (ix2 p q) := by
  show V m c main_arg0 (((cfg0.win 0).blk t).view.emb (ix2 p q)) = V m c main_arg0 (ix2 p q)
  refine congrArg (V m c main_arg0) (funext fun a => Fin.ext ?_)
  obtain ⟨e0, e1⟩ := index_0 t
  match a with
  | ⟨0, _⟩ => show win0_0.index t (0 : Fin 2) * 256 + 1 * p.val = p.val; omega
  | ⟨1, _⟩ => show win0_0.index t (1 : Fin 2) * 128 + 1 * q.val = q.val; omega

theorem blk1_apply (c : Dev nD) (t : Fin cfg0.N) (p : Fin 256) (q : Fin 128) :
    iblk m c 1 t (ix2 p q) = V m c main_arg1 (ix2 p q) := by
  show V m c main_arg1 (((cfg0.win 1).blk t).view.emb (ix2 p q)) = V m c main_arg1 (ix2 p q)
  refine congrArg (V m c main_arg1) (funext fun a => Fin.ext ?_)
  obtain ⟨e0, e1⟩ := index_1 t
  match a with
  | ⟨0, _⟩ => show win0_1.index t (0 : Fin 2) * 256 + 1 * p.val = p.val; omega
  | ⟨1, _⟩ => show win0_1.index t (1 : Fin 2) * 128 + 1 * q.val = q.val; omega

theorem blk3_apply (c : Dev nD) (t : Fin cfg0.N) (p : Fin 128) (q : Fin 128) :
    iblk m c 3 t (ix2 p q) = V m c main_v10 (ix2 p q) := by
  show V m c main_v10 (((cfg0.win 3).blk t).view.emb (ix2 p q)) = V m c main_v10 (ix2 p q)
  refine congrArg (V m c main_v10) (funext fun a => Fin.ext ?_)
  obtain ⟨e0, e1⟩ := index_3 t
  match a with
  | ⟨0, _⟩ => show win0_3.index t (0 : Fin 2) * 128 + 1 * p.val = p.val; omega
  | ⟨1, _⟩ => show win0_3.index t (1 : Fin 2) * 128 + 1 * q.val = q.val; omega

theorem blk5_apply (c : Dev nD) (t : Fin cfg0.N) (p : Fin 128) (q : Fin 128) :
    iblk m c 5 t (ix2 p q) = V m c main_v12 (ix2 p q) := by
  show V m c main_v12 (((cfg0.win 5).blk t).view.emb (ix2 p q)) = V m c main_v12 (ix2 p q)
  refine congrArg (V m c main_v12) (funext fun a => Fin.ext ?_)
  obtain ⟨e0, e1⟩ := index_5 t
  match a with
  | ⟨0, _⟩ => show win0_5.index t (0 : Fin 2) * 128 + 1 * p.val = p.val; omega
  | ⟨1, _⟩ => show win0_5.index t (1 : Fin 2) * 128 + 1 * q.val = q.val; omega

theorem blk7_apply (c : Dev nD) (t : Fin cfg0.N) (p : Fin 128) (q : Fin 128) :
    iblk m c 7 t (ix2 p q) = V m c main_v14 (ix2 p q) := by
  show V m c main_v14 (((cfg0.win 7).blk t).view.emb (ix2 p q)) = V m c main_v14 (ix2 p q)
  refine congrArg (V m c main_v14) (funext fun a => Fin.ext ?_)
  obtain ⟨e0, e1⟩ := index_7 t
  match a with
  | ⟨0, _⟩ => show win0_7.index t (0 : Fin 2) * 128 + 1 * p.val = p.val; omega
  | ⟨1, _⟩ => show win0_7.index t (1 : Fin 2) * 128 + 1 * q.val = q.val; omega

theorem blk9_apply (c : Dev nD) (t : Fin cfg0.N) (p : Fin 128) (q : Fin 128) :
    iblk m c 9 t (ix2 p q) = V m c main_v16 (ix2 p q) := by
  show V m c main_v16 (((cfg0.win 9).blk t).view.emb (ix2 p q)) = V m c main_v16 (ix2 p q)
  refine congrArg (V m c main_v16) (funext fun a => Fin.ext ?_)
  obtain ⟨e0, e1⟩ := index_9 t
  match a with
  | ⟨0, _⟩ => show win0_9.index t (0 : Fin 2) * 128 + 1 * p.val = p.val; omega
  | ⟨1, _⟩ => show win0_9.index t (1 : Fin 2) * 128 + 1 * q.val = q.val; omega

theorem blk11_apply (c : Dev nD) (t : Fin cfg0.N) (p : Fin 128) (q : Fin 128) :
    iblk m c 11 t (ix2 p q) = V m c main_v18 (ix2 p q) := by
  show V m c main_v18 (((cfg0.win 11).blk t).view.emb (ix2 p q)) = V m c main_v18 (ix2 p q)
  refine congrArg (V m c main_v18) (funext fun a => Fin.ext ?_)
  obtain ⟨e0, e1⟩ := index_11 t
  match a with
  | ⟨0, _⟩ => show win0_11.index t (0 : Fin 2) * 128 + 1 * p.val = p.val; omega
  | ⟨1, _⟩ => show win0_11.index t (1 : Fin 2) * 128 + 1 * q.val = q.val; omega

theorem blk13_apply (c : Dev nD) (t : Fin cfg0.N) (p : Fin 128) (q : Fin 128) :
    iblk m c 13 t (ix2 p q) = V m c main_v20 (ix2 p q) := by
  show V m c main_v20 (((cfg0.win 13).blk t).view.emb (ix2 p q)) = V m c main_v20 (ix2 p q)
  refine congrArg (V m c main_v20) (funext fun a => Fin.ext ?_)
  obtain ⟨e0, e1⟩ := index_13 t
  match a with
  | ⟨0, _⟩ => show win0_13.index t (0 : Fin 2) * 128 + 1 * p.val = p.val; omega
  | ⟨1, _⟩ => show win0_13.index t (1 : Fin 2) * 128 + 1 * q.val = q.val; omega

theorem blk4_apply (c : Dev nD) (t : Fin cfg0.N) (q : Fin 128) :
    iblk m c 4 t (ix1 q) = V m c main_arg7 (ix1 q) := by
  show V m c main_arg7 (((cfg0.win 4).blk t).view.emb (ix1 q)) = V m c main_arg7 (ix1 q)
  refine congrArg (V m c main_arg7) (funext fun a => Fin.ext ?_)
  have e0 := index_4 t
  match a with
  | ⟨0, _⟩ => show win0_4.index t (0 : Fin 1) * 128 + 1 * q.val = q.val; omega

theorem blk6_apply (c : Dev nD) (t : Fin cfg0.N) (q : Fin 128) :
    iblk m c 6 t (ix1 q) = V m c main_arg9 (ix1 q) := by
  show V m c main_arg9 (((cfg0.win 6).blk t).view.emb (ix1 q)) = V m c main_arg9 (ix1 q)
  refine congrArg (V m c main_arg9) (funext fun a => Fin.ext ?_)
  have e0 := index_6 t
  match a with
  | ⟨0, _⟩ => show win0_6.index t (0 : Fin 1) * 128 + 1 * q.val = q.val; omega

theorem blk8_apply (c : Dev nD) (t : Fin cfg0.N) (q : Fin 128) :
    iblk m c 8 t (ix1 q) = V m c main_arg11 (ix1 q) := by
  show V m c main_arg11 (((cfg0.win 8).blk t).view.emb (ix1 q)) = V m c main_arg11 (ix1 q)
  refine congrArg (V m c main_arg11) (funext fun a => Fin.ext ?_)
  have e0 := index_8 t
  match a with
  | ⟨0, _⟩ => show win0_8.index t (0 : Fin 1) * 128 + 1 * q.val = q.val; omega

theorem blk10_apply (c : Dev nD) (t : Fin cfg0.N) (q : Fin 128) :
    iblk m c 10 t (ix1 q) = V m c main_arg13 (ix1 q) := by
  show V m c main_arg13 (((cfg0.win 10).blk t).view.emb (ix1 q)) = V m c main_arg13 (ix1 q)
  refine congrArg (V m c main_arg13) (funext fun a => Fin.ext ?_)
  have e0 := index_10 t
  match a with
  | ⟨0, _⟩ => show win0_10.index t (0 : Fin 1) * 128 + 1 * q.val = q.val; omega

theorem blk12_apply (c : Dev nD) (t : Fin cfg0.N) (q : Fin 128) :
    iblk m c 12 t (ix1 q) = V m c main_arg15 (ix1 q) := by
  show V m c main_arg15 (((cfg0.win 12).blk t).view.emb (ix1 q)) = V m c main_arg15 (ix1 q)
  refine congrArg (V m c main_arg15) (funext fun a => Fin.ext ?_)
  have e0 := index_12 t
  match a with
  | ⟨0, _⟩ => show win0_12.index t (0 : Fin 1) * 128 + 1 * q.val = q.val; omega

theorem blk14_apply (c : Dev nD) (t : Fin cfg0.N) (q : Fin 128) :
    iblk m c 14 t (ix1 q) = V m c main_arg17 (ix1 q) := by
  show V m c main_arg17 (((cfg0.win 14).blk t).view.emb (ix1 q)) = V m c main_arg17 (ix1 q)
  refine congrArg (V m c main_arg17) (funext fun a => Fin.ext ?_)
  have e0 := index_14 t
  match a with
  | ⟨0, _⟩ => show win0_14.index t (0 : Fin 1) * 128 + 1 * q.val = q.val; omega

theorem blk2_apply (c : Dev nD) (t : Fin cfg0.N) (k : Fin 32) (b : Fin 256) (j : Fin 128) :
    iblk m c 2 t (ix3 k b j) = V m c main_v8 (ix3 (slabRow t k) b j) := by
  show V m c main_v8 (((cfg0.win 2).blk t).view.emb (ix3 k b j)) = V m c main_v8 (ix3 (slabRow t k) b j)
  refine congrArg (V m c main_v8) (funext fun a => Fin.ext ?_)
  obtain ⟨e0, e1, e2⟩ := index_2 t
  match a with
  | ⟨0, _⟩ => show win0_2.index t (0 : Fin 3) * 32 + 1 * k.val = t.val * 32 + k.val; omega
  | ⟨1, _⟩ => show win0_2.index t (1 : Fin 3) * 256 + 1 * b.val = b.val; omega
  | ⟨2, _⟩ => show win0_2.index t (2 : Fin 3) * 128 + 1 * j.val = j.val; omega

/-! ## What a point writes back, and the arrays after the run -/

/-- What point `t` writes back for branch `s`: slices `32·t … 32·t + 31` of `branch` of the argument arrays. -/
theorem flushed15_eq (c : Dev nD) (t : Fin cfg0.N) :
    (dats m 0 c).flushed 15 t = ((cfg0.win 15).blk t).view.read (Elt Ideal)
      (branch (m ((c.tc : Thread nD τ).loc main_arg0)) (m ((c.tc : Thread nD τ).loc main_arg6)) (m ((c.tc : Thread nD τ).loc main_arg7)) (slices (m ((c.tc : Thread nD τ).loc main_arg5)) (m ((c.tc : Thread nD τ).loc main_arg3))) (m ((c.tc : Thread nD τ).loc main_arg8)) (m ((c.tc : Thread nD τ).loc main_arg9)) (m ((c.tc : Thread nD τ).loc main_arg10)) (m ((c.tc : Thread nD τ).loc main_arg11))) := by
  show (cfg0.win 15).cut (grid0.coords t) ((dats m 0 c).after 15 t) = _
  rw [after0_15]
  unfold out0_15
  rw [View.canon_unit_zero hz3]
  simp only [View.ld_unit_zero (S := S256x128) hz2, View.ld_unit_zero (S := S32x256x128) hz3, View.ld_unit_zero (S := S128x128) hz2,
    View.ld_unit_zero (S := S128) hz1]
  funext y
  obtain ⟨k, b, e, rfl⟩ : ∃ (k : Fin 32) (b : Fin 256) (e : Fin 128), y = ix3 k b e := ⟨y 0, y 1, y 2, eq_ix3 y⟩
  show k0_pay1 (F := Ideal) (k0_pay5 (iblk m c 7 t)) (iblk m c 8 t) (k0_pay9 (iblk m c 0 t) (iblk m c 3 t) (iblk m c 4 t)) (k0_pay10 (iblk m c 2 t) (iblk m c 5 t)) (k0_pay11 (iblk m c 6 t)) (ix3 k b e)
      = (branch (m ((c.tc : Thread nD τ).loc main_arg0)) (m ((c.tc : Thread nD τ).loc main_arg6)) (m ((c.tc : Thread nD τ).loc main_arg7)) (slices (m ((c.tc : Thread nD τ).loc main_arg5)) (m ((c.tc : Thread nD τ).loc main_arg3))) (m ((c.tc : Thread nD τ).loc main_arg8)) (m ((c.tc : Thread nD τ).loc main_arg9)) (m ((c.tc : Thread nD τ).loc main_arg10)) (m ((c.tc : Thread nD τ).loc main_arg11))) (((cfg0.win 15).blk t).view.emb (ix3 k b e))
  have hemb : ((cfg0.win 15).blk t).view.emb (ix3 k b e) = ix3 (slabRow t k) b e := funext fun a => Fin.ext (by
    obtain ⟨e0, e1, e2⟩ := index_15 t
    match a with
    | ⟨0, _⟩ => show win0_15.index t (0 : Fin 3) * 32 + 1 * k.val = t.val * 32 + k.val; omega
    | ⟨1, _⟩ => show win0_15.index t (1 : Fin 3) * 256 + 1 * b.val = b.val; omega
    | ⟨2, _⟩ => show win0_15.index t (2 : Fin 3) * 128 + 1 * e.val = e.val; omega)
  rw [hemb, branch_apply]
  refine (body15_apply (iblk m c 0 t) (iblk m c 2 t) (iblk m c 3 t) (iblk m c 4 t) (iblk m c 5 t) (iblk m c 6 t) (iblk m c 7 t) (iblk m c 8 t) k b e).trans ?_
  refine congrArg₂ (· + ·) (Finset.sum_congr rfl fun d _ => congrArg₂ (· * ·) (congrArg₂ max (congrArg₂ (· - ·) ?_ ?_) rfl) ?_) ?_
  · unfold sampleEmb
    refine congrArg₂ (· + ·) (Finset.sum_congr rfl fun j _ => congrArg₂ (· * ·) ?_ ?_) ?_
    · exact (blk0_apply m c t b j).trans (congrFun (V_main_arg0 m c) (ix2 b j))
    · exact (blk3_apply m c t j d).trans (V_v10_apply m c j d)
    · exact (blk4_apply m c t d).trans (congrFun (V_main_arg7 m c) (ix1 d))
  · unfold sliceEmb
    refine congrArg₂ (· + ·) (Finset.sum_congr rfl fun j _ => congrArg₂ (· * ·) ?_ ?_) ?_
    · exact (blk2_apply m c t k b j).trans (V_slices_apply m c (ix3 (slabRow t k) b j))
    · exact (blk5_apply m c t j d).trans (V_v12_apply m c j d)
    · exact (blk6_apply m c t d).trans (congrFun (V_main_arg9 m c) (ix1 d))
  · exact (blk7_apply m c t d e).trans (V_v14_apply m c d e)
  · exact (blk8_apply m c t e).trans (congrFun (V_main_arg11 m c) (ix1 e))

/-- An entry of the result array lies in point `t`'s block iff its slice number is in `32·t … 32·t + 31`. -/
theorem mem_blk15 (t : Fin cfg0.N) (i : S512x256x128.Idx) :
    i ∈ ((cfg0.win 15).blk t).view.set ↔ ∀ a : Fin 3, win0_15.index t a * S32x256x128.size a ≤ (i a).val ∧ (i a).val < win0_15.index t a * S32x256x128.size a + S32x256x128.size a := by
  show i ∈ ((View.whole main_v21_0).slice (win0_15.rect t)).set ↔ _
  rw [View.set_slice_whole, Rect.mem_set_unit]
  exact Iff.rfl

/-- Every entry is in the block of the point its slice number names: the sixteen blocks tile the array. -/
theorem cover15 (i : S512x256x128.Idx) : ∃ t : Fin cfg0.N, (cfg0.win 15).flush t = true ∧ i ∈ ((cfg0.win 15).blk t).view.set := by
  have hi0 : (i 0).val < 512 := (i 0).isLt
  have hi1 : (i 1).val < 256 := (i 1).isLt
  have hi2 : (i 2).val < 128 := (i 2).isLt
  refine ⟨⟨(i 0).val / 32, by rw [show cfg0.N = 16 from N_0]; omega⟩, flush0_15 _, ?_⟩
  rw [mem_blk15]
  obtain ⟨e0, e1, e2⟩ := index_15 ⟨(i 0).val / 32, by rw [show cfg0.N = 16 from N_0]; omega⟩
  intro a
  match a with
  | ⟨0, _⟩ => show win0_15.index _ (0 : Fin 3) * 32 ≤ (i 0).val ∧ (i 0).val < win0_15.index _ (0 : Fin 3) * 32 + 32; rw [e0]; show (i 0).val / 32 * 32 ≤ (i 0).val ∧ (i 0).val < (i 0).val / 32 * 32 + 32; omega
  | ⟨1, _⟩ => show win0_15.index _ (1 : Fin 3) * 256 ≤ (i 1).val ∧ (i 1).val < win0_15.index _ (1 : Fin 3) * 256 + 256; omega
  | ⟨2, _⟩ => show win0_15.index _ (2 : Fin 3) * 128 ≤ (i 2).val ∧ (i 2).val < win0_15.index _ (2 : Fin 3) * 128 + 128; omega

/-- The result array of branch `s` after the run. -/
theorem final15 (c : Dev nD) : (dats m 0 c).arrAt 15 cfg0.N
      = branch (m ((c.tc : Thread nD τ).loc main_arg0)) (m ((c.tc : Thread nD τ).loc main_arg6)) (m ((c.tc : Thread nD τ).loc main_arg7)) (slices (m ((c.tc : Thread nD τ).loc main_arg5)) (m ((c.tc : Thread nD τ).loc main_arg3))) (m ((c.tc : Thread nD τ).loc main_arg8)) (m ((c.tc : Thread nD τ).loc main_arg9)) (m ((c.tc : Thread nD τ).loc main_arg10)) (m ((c.tc : Thread nD τ).loc main_arg11)) :=
  (dats m 0 c).arrAt_eq_of_cover 15 _ (fun t _ => flushed15_eq m c t) cover15

/-- What point `t` writes back for branch `t`: slices `32·t … 32·t + 31` of `branch` of the argument arrays. -/
theorem flushed16_eq (c : Dev nD) (t : Fin cfg0.N) :
    (dats m 0 c).flushed 16 t = ((cfg0.win 16).blk t).view.read (Elt Ideal)
      (branch (m ((c.tc : Thread nD τ).loc main_arg1)) (m ((c.tc : Thread nD τ).loc main_arg12)) (m ((c.tc : Thread nD τ).loc main_arg13)) (slices (m ((c.tc : Thread nD τ).loc main_arg5)) (m ((c.tc : Thread nD τ).loc main_arg3))) (m ((c.tc : Thread nD τ).loc main_arg14)) (m ((c.tc : Thread nD τ).loc main_arg15)) (m ((c.tc : Thread nD τ).loc main_arg16)) (m ((c.tc : Thread nD τ).loc main_arg17))) := by
  show (cfg0.win 16).cut (grid0.coords t) ((dats m 0 c).after 16 t) = _
  rw [after0_16]
  unfold out0_16
  rw [View.canon_unit_zero hz3]
  simp only [View.ld_unit_zero (S := S256x128) hz2, View.ld_unit_zero (S := S32x256x128) hz3, View.ld_unit_zero (S := S128x128) hz2,
    View.ld_unit_zero (S := S128) hz1]
  funext y
  obtain ⟨k, b, e, rfl⟩ : ∃ (k : Fin 32) (b : Fin 256) (e : Fin 128), y = ix3 k b e := ⟨y 0, y 1, y 2, eq_ix3 y⟩
  show k0_pay2 (F := Ideal) (k0_pay3 (iblk m c 1 t)) (k0_pay4 (iblk m c 2 t)) (k0_pay6 (iblk m c 9 t)) (iblk m c 10 t) (k0_pay7 (iblk m c 11 t)) (iblk m c 12 t) (k0_pay8 (iblk m c 13 t)) (iblk m c 14 t) (ix3 k b e)
      = (branch (m ((c.tc : Thread nD τ).loc main_arg1)) (m ((c.tc : Thread nD τ).loc main_arg12)) (m ((c.tc : Thread nD τ).loc main_arg13)) (slices (m ((c.tc : Thread nD τ).loc main_arg5)) (m ((c.tc : Thread nD τ).loc main_arg3))) (m ((c.tc : Thread nD τ).loc main_arg14)) (m ((c.tc : Thread nD τ).loc main_arg15)) (m ((c.tc : Thread nD τ).loc main_arg16)) (m ((c.tc : Thread nD τ).loc main_arg17))) (((cfg0.win 16).blk t).view.emb (ix3 k b e))
  have hemb : ((cfg0.win 16).blk t).view.emb (ix3 k b e) = ix3 (slabRow t k) b e := funext fun a => Fin.ext (by
    obtain ⟨e0, e1, e2⟩ := index_16 t
    match a with
    | ⟨0, _⟩ => show win0_16.index t (0 : Fin 3) * 32 + 1 * k.val = t.val * 32 + k.val; omega
    | ⟨1, _⟩ => show win0_16.index t (1 : Fin 3) * 256 + 1 * b.val = b.val; omega
    | ⟨2, _⟩ => show win0_16.index t (2 : Fin 3) * 128 + 1 * e.val = e.val; omega)
  rw [hemb, branch_apply]
  refine (body16_apply (iblk m c 1 t) (iblk m c 2 t) (iblk m c 9 t) (iblk m c 10 t) (iblk m c 11 t) (iblk m c 12 t) (iblk m c 13 t) (iblk m c 14 t) k b e).trans ?_
  refine congrArg₂ (· + ·) (Finset.sum_congr rfl fun d _ => congrArg₂ (· * ·) (congrArg₂ max (congrArg₂ (· - ·) ?_ ?_) rfl) ?_) ?_
  · unfold sampleEmb
    refine congrArg₂ (· + ·) (Finset.sum_congr rfl fun j _ => congrArg₂ (· * ·) ?_ ?_) ?_
    · exact (blk1_apply m c t b j).trans (congrFun (V_main_arg1 m c) (ix2 b j))
    · exact (blk9_apply m c t j d).trans (V_v16_apply m c j d)
    · exact (blk10_apply m c t d).trans (congrFun (V_main_arg13 m c) (ix1 d))
  · unfold sliceEmb
    refine congrArg₂ (· + ·) (Finset.sum_congr rfl fun j _ => congrArg₂ (· * ·) ?_ ?_) ?_
    · exact (blk2_apply m c t k b j).trans (V_slices_apply m c (ix3 (slabRow t k) b j))
    · exact (blk11_apply m c t j d).trans (V_v18_apply m c j d)
    · exact (blk12_apply m c t d).trans (congrFun (V_main_arg15 m c) (ix1 d))
  · exact (blk13_apply m c t d e).trans (V_v20_apply m c d e)
  · exact (blk14_apply m c t e).trans (congrFun (V_main_arg17 m c) (ix1 e))

/-- An entry of the result array lies in point `t`'s block iff its slice number is in `32·t … 32·t + 31`. -/
theorem mem_blk16 (t : Fin cfg0.N) (i : S512x256x128.Idx) :
    i ∈ ((cfg0.win 16).blk t).view.set ↔ ∀ a : Fin 3, win0_16.index t a * S32x256x128.size a ≤ (i a).val ∧ (i a).val < win0_16.index t a * S32x256x128.size a + S32x256x128.size a := by
  show i ∈ ((View.whole main_v21_1).slice (win0_16.rect t)).set ↔ _
  rw [View.set_slice_whole, Rect.mem_set_unit]
  exact Iff.rfl

/-- Every entry is in the block of the point its slice number names: the sixteen blocks tile the array. -/
theorem cover16 (i : S512x256x128.Idx) : ∃ t : Fin cfg0.N, (cfg0.win 16).flush t = true ∧ i ∈ ((cfg0.win 16).blk t).view.set := by
  have hi0 : (i 0).val < 512 := (i 0).isLt
  have hi1 : (i 1).val < 256 := (i 1).isLt
  have hi2 : (i 2).val < 128 := (i 2).isLt
  refine ⟨⟨(i 0).val / 32, by rw [show cfg0.N = 16 from N_0]; omega⟩, flush0_16 _, ?_⟩
  rw [mem_blk16]
  obtain ⟨e0, e1, e2⟩ := index_16 ⟨(i 0).val / 32, by rw [show cfg0.N = 16 from N_0]; omega⟩
  intro a
  match a with
  | ⟨0, _⟩ => show win0_16.index _ (0 : Fin 3) * 32 ≤ (i 0).val ∧ (i 0).val < win0_16.index _ (0 : Fin 3) * 32 + 32; rw [e0]; show (i 0).val / 32 * 32 ≤ (i 0).val ∧ (i 0).val < (i 0).val / 32 * 32 + 32; omega
  | ⟨1, _⟩ => show win0_16.index _ (1 : Fin 3) * 256 ≤ (i 1).val ∧ (i 1).val < win0_16.index _ (1 : Fin 3) * 256 + 256; omega
  | ⟨2, _⟩ => show win0_16.index _ (2 : Fin 3) * 128 ≤ (i 2).val ∧ (i 2).val < win0_16.index _ (2 : Fin 3) * 128 + 128; omega

/-- The result array of branch `t` after the run. -/
theorem final16 (c : Dev nD) : (dats m 0 c).arrAt 16 cfg0.N
      = branch (m ((c.tc : Thread nD τ).loc main_arg1)) (m ((c.tc : Thread nD τ).loc main_arg12)) (m ((c.tc : Thread nD τ).loc main_arg13)) (slices (m ((c.tc : Thread nD τ).loc main_arg5)) (m ((c.tc : Thread nD τ).loc main_arg3))) (m ((c.tc : Thread nD τ).loc main_arg14)) (m ((c.tc : Thread nD τ).loc main_arg15)) (m ((c.tc : Thread nD τ).loc main_arg16)) (m ((c.tc : Thread nD τ).loc main_arg17)) :=
  (dats m 0 c).arrAt_eq_of_cover 16 _ (fun t _ => flushed16_eq m c t) cover16

end Cert.KernelIdeal.Blocks

end
-- ==== Proof.KernelTail.lean ====
/-
  The memory-bank update, which both programs run as the same host lines. The sample's row of the bank (row index
  wrapped by the bank's length when negative) is averaged with the sample, the average is divided by the square root
  of its sum of squares, and the result is written back over that row. The value is stated once, as a function of the
  bank, the row indices and the samples; the kernel's lines after the region compute it from arrays the region leaves
  untouched.
-/
import proofs.«154684_j21801253995012_1_alg».proof.Proof.KernelIdealFrame
import Idealize.ShloMosaic.Lib.StableHlo.Run

noncomputable section

namespace Cert.KernelIdeal.Tail

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]

/-- The bank's row each sample updates: its index, plus the bank's length where it is negative. -/
def rowIdx (y : (⟨S256, .i32⟩ : BufTy).Contents (Elt F)) : (⟨S256x1, .i32⟩ : BufTy).Contents (Elt F) :=
  broadcastInDim S256x1 ![0] bcast_S256_S256x1_0
    (select (cmpi .slt y (broadcastInDim S256 ![] bcast_S_S256 (constantI S_ 32 0#32)))
      (addi y (broadcastInDim S256 ![] bcast_S_S256 (constantI S_ 32 1000000#32))) y)

/-- Half the bank's row plus half the sample. -/
def mixed (mem : (⟨S1000000x128, .f32⟩ : BufTy).Contents (Elt F)) (y : (⟨S256, .i32⟩ : BufTy).Contents (Elt F)) (v : (⟨S256x128, .f32⟩ : BufTy).Contents (Elt F)) : (⟨S256x128, .f32⟩ : BufTy).Contents (Elt F) :=
  addf (mulf (Host.gather gather_S1000000x128_S256x1_S256x128_1_0_n_n_0_1_1128 mem (rowIdx y))
        (broadcastInDim S256x128 ![] bcast_S_S256x128 (constant S_ .f32 0x3F000000#32)))
    (mulf v (broadcastInDim S256x128 ![] bcast_S_S256x128 (constant S_ .f32 0x3F000000#32)))

/-- The updated bank: the mixed rows, each divided by its Euclidean length, written over the rows they came from. -/
def updated (mem : (⟨S1000000x128, .f32⟩ : BufTy).Contents (Elt F)) (y : (⟨S256, .i32⟩ : BufTy).Contents (Elt F)) (v : (⟨S256x128, .f32⟩ : BufTy).Contents (Elt F)) : (⟨S1000000x128, .f32⟩ : BufTy).Contents (Elt F) :=
  Host.scatter scatter_S1000000x128_S256x1_S256x128_1_0_0_1 (fun _ b => b) mem (rowIdx y)
    (Host.divf (mixed mem y v)
      (broadcastInDim S256x128 ![0, 1] bcast_S256x1_S256x128_0_1
        (Host.sqrt (broadcastInDim S256x1 ![0] bcast_S256_S256x1_0
          (Host.reduceAdd (mulf (mixed mem y v) (mixed mem y v)) (constant S_ .f32 0x00000000#32) reducesTo_S256x128_S256_d1 h_S_)))))

variable (m : (ℓ : Loc nD τ sig) → Buf (Elt F) ℓ)

/-- What the lines after the region find in an array the region does not stage: its contents as launched. -/
theorem tail_arg2 (c : Dev nD) :
    Pipeline.withArrays spec0 c (V0 m c) (fun w => (dats m 0 c).arrAt w cfg0.N) (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)
theorem tail_arg4 (c : Dev nD) :
    Pipeline.withArrays spec0 c (V0 m c) (fun w => (dats m 0 c).arrAt w cfg0.N) (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)
theorem tail_arg5 (c : Dev nD) :
    Pipeline.withArrays spec0 c (V0 m c) (fun w => (dats m 0 c).arrAt w cfg0.N) (Proc.devRef .tc main_arg5) = m ((c.tc : Thread nD τ).loc main_arg5) :=
  (Pipeline.withArrays_of_ne _ c (V0 m c) _ main_arg5 (by exact (by decide : ∀ w, Pipeline.arrRef spec0 w ≠ main_arg5))).trans (V_main_arg5 m c)

/-- The samples are staged (windows 0 and 1) but never written: an input window's array ends as it began. -/
theorem tail_arg0 (c : Dev nD) :
    Pipeline.withArrays spec0 c (V0 m c) (fun w => (dats m 0 c).arrAt w cfg0.N) (Proc.devRef .tc main_arg0) = m ((c.tc : Thread nD τ).loc main_arg0) :=
  (Pipeline.withArrays_arr spec0 launch0.win.arr_inj c _ _ 0).trans
    (((dats m 0 c).arrAt_in 0 rfl _).trans ((A_eq m c 0).trans (V_main_arg0 m c)))
theorem tail_arg1 (c : Dev nD) :
    Pipeline.withArrays spec0 c (V0 m c) (fun w => (dats m 0 c).arrAt w cfg0.N) (Proc.devRef .tc main_arg1) = m ((c.tc : Thread nD τ).loc main_arg1) :=
  (Pipeline.withArrays_arr spec0 launch0.win.arr_inj c _ _ 1).trans
    (((dats m 0 c).arrAt_in 1 rfl _).trans ((A_eq m c 1).trans (V_main_arg1 m c)))

set_option maxHeartbeats 4000000 in
/-- The first bank after the run. -/
theorem tail_v46 (c : Dev nD) :
    Pipeline.afterTail₀ cfgs (dats m) 0 (V0 m) [hostOps1] c main_v46
      = updated (m ((c.tc : Thread nD τ).loc main_arg4)) (m ((c.tc : Thread nD τ).loc main_arg2)) (m ((c.tc : Thread nD τ).loc main_arg0)) := by
  unfold Pipeline.afterTail₀
  show StableHlo.after hostOps1 _ (Proc.devRef .tc main_v46) = _
  after_results_simp
  rw [tail_arg0, tail_arg2, tail_arg4]
  rfl

set_option maxHeartbeats 4000000 in
/-- The second bank after the run. -/
theorem tail_v71 (c : Dev nD) :
    Pipeline.afterTail₀ cfgs (dats m) 0 (V0 m) [hostOps1] c main_v71
      = updated (m ((c.tc : Thread nD τ).loc main_arg5)) (m ((c.tc : Thread nD τ).loc main_arg2)) (m ((c.tc : Thread nD τ).loc main_arg1)) := by
  unfold Pipeline.afterTail₀
  show StableHlo.after hostOps1 _ (Proc.devRef .tc main_v71) = _
  after_results_simp
  rw [tail_arg1, tail_arg2, tail_arg5]
  rfl

end Cert.KernelIdeal.Tail

end
-- ==== Proof.lean ====
/-
  The certificate. Both programs compute, twice over, one "branch": embed 256 samples and 512 × 256 gathered memory
  rows with linear maps, rectify the difference, and map it linearly once more (Proof/Spec.lean says it index by
  index); and both update two memory banks by the same host lines. The kernel tiles the 512 slices into sixteen
  blocks of 32, flattens each block to 8192 rows for its matrix products, and receives the weights already transposed
  and narrowed to 16 bits; at the ideal values the narrowing is the identity and every product is a finite sum over the
  shared axis, so block by block the kernel writes the corresponding sixteenth of `branch` (Proof/KernelPayload.lean,
  Proof/KernelBlocks.lean), while the reference's contractions, read stage by stage, are the same sums
  (Proof/RefValue.lean). No law beyond re-indexing a sum is used, so the inputs' finiteness is never opened. The bank
  updates depend only on arrays the region leaves untouched and are the same term on both sides (Proof/KernelTail.lean).
  The three frames are the generated ones; the ideal pass changed nothing, so `preserves` is trivial.
-/
import proofs.«154684_j21801253995012_1_alg».proof.Defs
import proofs.«154684_j21801253995012_1_alg».proof.Proof.Gen.Kernel
import proofs.«154684_j21801253995012_1_alg».proof.Proof.KernelFrame
import proofs.«154684_j21801253995012_1_alg».proof.Proof.Gen.KernelIdeal
import proofs.«154684_j21801253995012_1_alg».proof.Proof.KernelIdealFrame
import proofs.«154684_j21801253995012_1_alg».proof.Proof.Gen.ReferenceIdeal
import proofs.«154684_j21801253995012_1_alg».proof.Proof.Gen.Pre_finite_inputs
import proofs.«154684_j21801253995012_1_alg».proof.Proof.Gen.ReferenceIdeal.Run
import proofs.«154684_j21801253995012_1_alg».proof.Proof.Gen.ReferenceIdeal.Read
import proofs.«154684_j21801253995012_1_alg».proof.Proof.RefValue
import proofs.«154684_j21801253995012_1_alg».proof.Proof.KernelBlocks
import proofs.«154684_j21801253995012_1_alg».proof.Proof.KernelTail
import Idealize.ShloMosaic.Adequacy
import Idealize.ShloMosaic.Init

set_option maxRecDepth 16384

noncomputable section

namespace Cert.Proof

open Idealize.ShloMosaic Idealize.ShloMosaic.TcCoe Idealize.SL.Sem

/-! ## The two programs' host vocabulary names the same operations -/

/-- The reference's gathered, slice-major memory rows are the kernel's. -/
theorem slices_agree (x3 : (⟨Cert.ReferenceIdeal.S256x512, .i32⟩ : BufTy).Contents (Elt Ideal))
    (x5 : (⟨Cert.ReferenceIdeal.S1000000x128, .f32⟩ : BufTy).Contents (Elt Ideal)) :
    Cert.ReferenceIdeal.Read.val_main_v7 (F := Ideal) x3 x5 = Cert.KernelIdeal.Entry.slices x5 x3 := rfl

/-- The reference's bank update is the kernel's. -/
theorem updated_agree_1 {F : FTy → Type} [FloatOps F] (x0 : (⟨Cert.ReferenceIdeal.S256x128, .f32⟩ : BufTy).Contents (Elt F))
    (x2 : (⟨Cert.ReferenceIdeal.S256, .i32⟩ : BufTy).Contents (Elt F)) (x4 : (⟨Cert.ReferenceIdeal.S1000000x128, .f32⟩ : BufTy).Contents (Elt F)) :
    Cert.ReferenceIdeal.Read.val_main_v66 (F := F) x0 x2 x4 = Cert.KernelIdeal.Tail.updated (F := F) x4 x2 x0 := rfl
theorem updated_agree_2 {F : FTy → Type} [FloatOps F] (x1 : (⟨Cert.ReferenceIdeal.S256x128, .f32⟩ : BufTy).Contents (Elt F))
    (x2 : (⟨Cert.ReferenceIdeal.S256, .i32⟩ : BufTy).Contents (Elt F)) (x5 : (⟨Cert.ReferenceIdeal.S1000000x128, .f32⟩ : BufTy).Contents (Elt F)) :
    Cert.ReferenceIdeal.Read.val_main_v91 (F := F) x1 x2 x5 = Cert.KernelIdeal.Tail.updated (F := F) x5 x2 x1 := rfl

/-! ## The claims -/

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.Value.run (F := Ideal) m ρ)

theorem preserves : Cert.preserves_Kernel_KernelIdeal := trivial

section KernelRun
open Cert.KernelIdeal Cert.KernelIdeal.Gen Cert.KernelIdeal.GenP Cert.KernelIdeal.Blocks Cert.KernelIdeal.Tail

set_option maxHeartbeats 4000000 in
/-- The idealized kernel's run, read: the two result arrays hold `branch` of the arguments, the two banks the update,
    and the arguments are unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21_1) = Cert.Spec.branch (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (Cert.KernelIdeal.Entry.slices (m ((c.tc : Thread Cert.KernelIdeal.nD Cert.KernelIdeal.τ).loc Cert.KernelIdeal.main_arg5)) (m ((c.tc : Thread Cert.KernelIdeal.nD Cert.KernelIdeal.τ).loc Cert.KernelIdeal.main_arg3))) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      ∧ r.2.mem ((c.tc : Thread nD τ).loc main_v21_0) = Cert.Spec.branch (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (Cert.KernelIdeal.Entry.slices (m ((c.tc : Thread Cert.KernelIdeal.nD Cert.KernelIdeal.τ).loc Cert.KernelIdeal.main_arg5)) (m ((c.tc : Thread Cert.KernelIdeal.nD Cert.KernelIdeal.τ).loc Cert.KernelIdeal.main_arg3))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread nD τ).loc main_v46) = updated (m ((c.tc : Thread Cert.KernelIdeal.nD Cert.KernelIdeal.τ).loc Cert.KernelIdeal.main_arg4)) (m ((c.tc : Thread Cert.KernelIdeal.nD Cert.KernelIdeal.τ).loc Cert.KernelIdeal.main_arg2)) (m ((c.tc : Thread Cert.KernelIdeal.nD Cert.KernelIdeal.τ).loc Cert.KernelIdeal.main_arg0))
      ∧ r.2.mem ((c.tc : Thread nD τ).loc main_v71) = updated (m ((c.tc : Thread Cert.KernelIdeal.nD Cert.KernelIdeal.τ).loc Cert.KernelIdeal.main_arg5)) (m ((c.tc : Thread Cert.KernelIdeal.nD Cert.KernelIdeal.τ).loc Cert.KernelIdeal.main_arg2)) (m ((c.tc : Thread Cert.KernelIdeal.nD Cert.KernelIdeal.τ).loc Cert.KernelIdeal.main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨((h c).1 16).trans (final16 m c), ((h c).1 15).trans (final15 m c),
      ((h c).2 main_v46 (Pipeline.mem_restRefs_of main_v46 (by decide) (by decide))).trans (tail_v46 m c),
      ((h c).2 main_v71 (Pipeline.mem_restRefs_of main_v71 (by decide) (by decide))).trans (tail_v71 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 4).trans (((dats m 0 c).arrAt_in 4 rfl _).trans ((A_eq m c 4).trans (V_main_arg7 m c))),
      ((h c).2 main_arg8 (Pipeline.mem_restRefs_of main_arg8 (by decide) (by decide))).trans (W_main_arg8 m (dats m) c),
      ((h c).1 6).trans (((dats m 0 c).arrAt_in 6 rfl _).trans ((A_eq m c 6).trans (V_main_arg9 m c))),
      ((h c).2 main_arg10 (Pipeline.mem_restRefs_of main_arg10 (by decide) (by decide))).trans (W_main_arg10 m (dats m) c),
      ((h c).1 8).trans (((dats m 0 c).arrAt_in 8 rfl _).trans ((A_eq m c 8).trans (V_main_arg11 m c))),
      ((h c).2 main_arg12 (Pipeline.mem_restRefs_of main_arg12 (by decide) (by decide))).trans (W_main_arg12 m (dats m) c),
      ((h c).1 10).trans (((dats m 0 c).arrAt_in 10 rfl _).trans ((A_eq m c 10).trans (V_main_arg13 m c))),
      ((h c).2 main_arg14 (Pipeline.mem_restRefs_of main_arg14 (by decide) (by decide))).trans (W_main_arg14 m (dats m) c),
      ((h c).1 12).trans (((dats m 0 c).arrAt_in 12 rfl _).trans ((A_eq m c 12).trans (V_main_arg15 m c))),
      ((h c).2 main_arg16 (Pipeline.mem_restRefs_of main_arg16 (by decide) (by decide))).trans (W_main_arg16 m (dats m) c),
      ((h c).1 14).trans (((dats m 0 c).arrAt_in 14 rfl _).trans ((A_eq m c 14).trans (V_main_arg17 m c)))⟩)
    (run_main m ρ)

end KernelRun

set_option maxHeartbeats 4000000 in
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, kernel_run m ρ, ?_⟩
  refine (θ_run Cert.ReferenceIdeal.defs _ _).mono (fun r h c => ?_) (Cert.ReferenceIdeal.Value.run (F := Ideal) m' ρ')
  obtain ⟨h41, h24, h66, h91, hargs⟩ := h c
  obtain ⟨a0, a1, a2, a3, a4, a5, a6, a7, a8, a9, a10, a11, a12, a13, a14, a15, a16, a17⟩ := hagree c
  refine ⟨?_, ?_, ?_, ?_, hargs⟩
  · refine h41.trans ?_
    show Cert.ReferenceIdeal.Read.val_main_v41 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = _
    rw [Cert.ReferenceIdeal.RefValue.result_t, slices_agree, a1, a3, a5, a12, a13, a14, a15, a16, a17]
  · refine h24.trans ?_
    show Cert.ReferenceIdeal.Read.val_main_v24 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
    rw [Cert.ReferenceIdeal.RefValue.result_s, slices_agree, a0, a3, a5, a6, a7, a8, a9, a10, a11]
  · refine h66.trans ?_
    show Cert.ReferenceIdeal.Read.val_main_v66 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) = _
    rw [updated_agree_1, a0, a2, a4]
  · refine h91.trans ?_
    show Cert.ReferenceIdeal.Read.val_main_v91 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) = _
    rw [updated_agree_2, a1, a2, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
